-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩
abbrev S1x800000 : Shape := ⟨2, ![1, 800000]⟩
abbrev S800000 : Shape := ⟨1, ![800000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part3 {F : FTy → Type} [FloatOps F] (main_arg1 : IVec S2x800000 32) (main_v48 : IVec S_ 1) (main_v50 : IVec S800000 32) (main_c_18 : IVec S_ 32) : IVec S_ 1 :=
  let main_v51 : IVec S800000 32 := broadcastInDim S800000 ![] bcast_S_S800000 main_c_18
  let main_v52 : IVec S800000 1 := cmpi .sge main_v50 main_v51
  let main_v53 : IVec S1x800000 32 := (extractStridedSlice S1x800000 ![0, 0] · slices_S2x800000_S1x800000_0_0) main_arg1
  let main_v54 : IVec S800000 32 := shapeCast S800000 main_v53 shapeCasts_S1x800000_S800000
  let main_c_19 : IVec S_ 32 := constantI S_ 32 50000#32
  let main_v55 : IVec S800000 32 := broadcastInDim S800000 ![] bcast_S_S800000 main_c_19
  let main_v56 : IVec S800000 1 := cmpi .slt main_v54 main_v55
  let main_v57 : IVec S800000 1 := andi main_v52 main_v56
  let main_c_20 : IVec S_ 1 := constantI S_ 1 1#1
  let main_v58 : IVec S_ 1 := (fun x v => Host.reduce IntOp.andi x v reducesTo_S800000_S_d0 h_S_) main_v57 main_c_20
  let main_v59 : IVec S_ 1 := andi main_v48 main_v58
  main_v59

def fn_part2 {F : FTy → Type} [FloatOps F] (main_arg1 : IVec S2x800000 32) (main_arg8 : FVec F S128x64 .f32) (main_arg9 : FVec F S128x64 .f32) (main_arg10 : FVec F S64 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S128x64 .f32 := Host.absf main_arg9
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : IVec S1x800000 32 := (extractStridedSlice S1x800000 ![0, 0] · slices_S2x800000_S1x800000_0_0) main_arg1
  let main_v50 : IVec S800000 32 := shapeCast S800000 main_v49 shapeCasts_S1x800000_S800000
  let main_c_18 : IVec S_ 32 := constantI S_ 32 0#32
  fn_part3 (F := F) main_arg1 main_v48 main_v50 main_c_18

def fn_part1 {F : FTy → Type} [FloatOps F] (main_arg1 : IVec S2x800000 32) (main_arg5 : FVec F S256x128 .f32) (main_arg6 : FVec F S256x128 .f32) (main_arg7 : FVec F S128 .f32) (main_arg8 : FVec F S128x64 .f32) (main_arg9 : FVec F S128x64 .f32) (main_arg10 : FVec F S64 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S256x128 .f32 := Host.absf main_arg6
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg8 main_arg9 main_arg10 main_v33

def fn {F : FTy → Type} [FloatOps F] (main_arg0 : FVec F S50000x128 .f32) (main_arg1 : IVec S2x800000 32) (main_arg2 : FVec F S128x256 .f32) (main_arg3 : FVec F S128x256 .f32) (main_arg4 : FVec F S256 .f32) (main_arg5 : FVec F S256x128 .f32) (main_arg6 : FVec F S256x128 .f32) (main_arg7 : FVec F S128 .f32) (main_arg8 : FVec F S128x64 .f32) (main_arg9 : FVec F S128x64 .f32) (main_arg10 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg1 main_arg5 main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S1 : Shape := ⟨1, ![1]⟩
abbrev S1x1 : Shape := ⟨2, ![1, 1]⟩
abbrev S800000x128 : Shape := ⟨2, ![800000, 128]⟩
abbrev S50000x1 : Shape := ⟨2, ![50000, 1]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩
abbrev S800000x256 : Shape := ⟨2, ![800000, 256]⟩
abbrev S1x128 : Shape := ⟨2, ![1, 128]⟩
abbrev S1x64 : Shape := ⟨2, ![1, 64]⟩
abbrev S50000x64 : Shape := ⟨2, ![50000, 64]⟩
abbrev S2000x64 : Shape := ⟨2, ![2000, 64]⟩

abbrev nBuf : Space → Nat
  | .hbm => 123
  | .vmem => 27
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S128x256, .f32⟩
  | .hbm, ⟨4, _⟩ => ⟨S256, .f32⟩
  | .hbm, ⟨5, _⟩ => ⟨S256x128, .f32⟩
  | .hbm, ⟨6, _⟩ => ⟨S256x128, .f32⟩
  | .hbm, ⟨7, _⟩ => ⟨S128, .f32⟩
  | .hbm, ⟨8, _⟩ => ⟨S128x64, .f32⟩
  | .hbm, ⟨9, _⟩ => ⟨S128x64, .f32⟩
  | .hbm, ⟨10, _⟩ => ⟨S64, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .f32⟩
  | .hbm, ⟨16, _⟩ => ⟨S800000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S1, .i32⟩
  | .hbm, ⟨36, _⟩ => ⟨S_, .i32⟩
  | .hbm, ⟨37, _⟩ => ⟨S800000x1, .i32⟩
  | .hbm, ⟨38, _⟩ => ⟨S800000x1, .i1⟩
  | .hbm, ⟨39, _⟩ => ⟨S1x1, .i32⟩
  | .hbm, ⟨40, _⟩ => ⟨S800000x1, .i32⟩
  | .hbm, ⟨41, _⟩ => ⟨S800000x1, .i1⟩
  | .hbm, ⟨42, _⟩ => ⟨S800000x1, .i1⟩
  | .hbm, ⟨43, _⟩ => ⟨S_, .i1⟩
  | .hbm, ⟨44, _⟩ => ⟨S800000, .i1⟩
  | .hbm, ⟨45, _⟩ => ⟨S800000x128, .f32⟩
  | .hbm, ⟨46, _⟩ => ⟨S800000x128, .i1⟩
  | .hbm, ⟨47, _⟩ => ⟨S_, .f32⟩
  | .hbm, ⟨48, _⟩ => ⟨S800000x128, .f32⟩
  | .hbm, ⟨49, _⟩ => ⟨S800000x128, .f32⟩
  | .hbm, ⟨50, _⟩ => ⟨S_, .f32⟩
  | .hbm, ⟨51, _⟩ => ⟨S50000x128, .f32⟩
  | .hbm, ⟨52, _⟩ => ⟨S800000x1, .i32⟩
  | .hbm, ⟨53, _⟩ => ⟨S50000x128, .f32⟩
  | .hbm, ⟨54, _⟩ => ⟨S50000x1, .f32⟩
  | .hbm, ⟨55, _⟩ => ⟨S50000x128, .f32⟩
  | .hbm, ⟨56, _⟩ => ⟨S50000x128, .f32⟩
  | .hbm, ⟨57, _⟩ => ⟨S1x256, .f32⟩
  | .hbm, ⟨58, _⟩ => ⟨S50000x256, .f32⟩
  | .hbm, ⟨59, _⟩ => ⟨S_, .i32⟩
  | .hbm, ⟨60, _⟩ => ⟨S800000, .i32⟩
  | .hbm, ⟨61, _⟩ => ⟨S800000, .i1⟩
  | .hbm, ⟨62, _⟩ => ⟨S_, .i32⟩
  | .hbm, ⟨63, _⟩ => ⟨S800000, .i32⟩
  | .hbm, ⟨64, _⟩ => ⟨S800000, .i32⟩
  | .hbm, ⟨65, _⟩ => ⟨S800000, .i32⟩
  | .hbm, ⟨66, _⟩ => ⟨S800000x1, .i32⟩
  | .hbm, ⟨67, _⟩ => ⟨S1, .i32⟩
  | .hbm, ⟨68, _⟩ => ⟨S_, .i32⟩
  | .hbm, ⟨69, _⟩ => ⟨S800000x1, .i32⟩
  | .hbm, ⟨70, _⟩ => ⟨S800000x1, .i1⟩
  | .hbm, ⟨71, _⟩ => ⟨S1x1, .i32⟩
  | .hbm, ⟨72, _⟩ => ⟨S800000x1, .i32⟩
  | .hbm, ⟨73, _⟩ => ⟨S800000x1, .i1⟩
  | .hbm, ⟨74, _⟩ => ⟨S800000x1, .i1⟩
  | .hbm, ⟨75, _⟩ => ⟨S_, .i1⟩
  | .hbm, ⟨76, _⟩ => ⟨S800000, .i1⟩
  | .hbm, ⟨77, _⟩ => ⟨S800000x256, .f32⟩
  | .hbm, ⟨78, _⟩ => ⟨S800000x256, .i1⟩
  | .hbm, ⟨79, _⟩ => ⟨S_, .f32⟩
  | .hbm, ⟨80, _⟩ => ⟨S800000x256, .f32⟩
  | .hbm, ⟨81, _⟩ => ⟨S800000x256, .f32⟩
  | .hbm, ⟨82, _⟩ => ⟨S_, .f32⟩
  | .hbm, ⟨83, _⟩ => ⟨S50000x256, .f32⟩
  | .hbm, ⟨84, _⟩ => ⟨S800000x1, .i32⟩
  | .hbm, ⟨85, _⟩ => ⟨S50000x256, .f32⟩
  | .hbm, ⟨86, _⟩ => ⟨S50000x1, .f32⟩
  | .hbm, ⟨87, _⟩ => ⟨S50000x256, .f32⟩
  | .hbm, ⟨88, _⟩ => ⟨S50000x256, .f32⟩
  | .hbm, ⟨89, _⟩ => ⟨S1x128, .f32⟩
  | .hbm, ⟨90, _⟩ => ⟨S50000x128, .f32⟩
  | .hbm, ⟨91, _⟩ => ⟨S_, .i32⟩
  | .hbm, ⟨92, _⟩ => ⟨S800000, .i32⟩
  | .hbm, ⟨93, _⟩ => ⟨S800000, .i1⟩
  | .hbm, ⟨94, _⟩ => ⟨S_, .i32⟩
  | .hbm, ⟨95, _⟩ => ⟨S800000, .i32⟩
  | .hbm, ⟨96, _⟩ => ⟨S800000, .i32⟩
  | .hbm, ⟨97, _⟩ => ⟨S800000, .i32⟩
  | .hbm, ⟨98, _⟩ => ⟨S800000x1, .i32⟩
  | .hbm, ⟨99, _⟩ => ⟨S1, .i32⟩
  | .hbm, ⟨100, _⟩ => ⟨S_, .i32⟩
  | .hbm, ⟨101, _⟩ => ⟨S800000x1, .i32⟩
  | .hbm, ⟨102, _⟩ => ⟨S800000x1, .i1⟩
  | .hbm, ⟨103, _⟩ => ⟨S1x1, .i32⟩
  | .hbm, ⟨104, _⟩ => ⟨S800000x1, .i32⟩
  | .hbm, ⟨105, _⟩ => ⟨S800000x1, .i1⟩
  | .hbm, ⟨106, _⟩ => ⟨S800000x1, .i1⟩
  | .hbm, ⟨107, _⟩ => ⟨S_, .i1⟩
  | .hbm, ⟨108, _⟩ => ⟨S800000, .i1⟩
  | .hbm, ⟨109, _⟩ => ⟨S800000x128, .f32⟩
  | .hbm, ⟨110, _⟩ => ⟨S800000x128, .i1⟩
  | .hbm, ⟨111, _⟩ => ⟨S_, .f32⟩
  | .hbm, ⟨112, _⟩ => ⟨S800000x128, .f32⟩
  | .hbm, ⟨113, _⟩ => ⟨S800000x128, .f32⟩
  | .hbm, ⟨114, _⟩ => ⟨S_, .f32⟩
  | .hbm, ⟨115, _⟩ => ⟨S50000x128, .f32⟩
  | .hbm, ⟨116, _⟩ => ⟨S800000x1, .i32⟩
  | .hbm, ⟨117, _⟩ => ⟨S50000x128, .f32⟩
  | .hbm, ⟨118, _⟩ => ⟨S50000x1, .f32⟩
  | .hbm, ⟨119, _⟩ => ⟨S50000x128, .f32⟩
  | .hbm, ⟨120, _⟩ => ⟨S50000x128, .f32⟩
  | .hbm, ⟨121, _⟩ => ⟨S1x64, .f32⟩
  | .hbm, ⟨122, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .f32⟩
  | .local _ .vmem, ⟨5, _⟩ => ⟨S128x256, .f32⟩
  | .local _ .vmem, ⟨6, _⟩ => ⟨S1x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256x128, .f32⟩
  | .local _ .vmem, ⟨14, _⟩ => ⟨S256x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x64, .f32⟩
  | .local _ .vmem, ⟨23, _⟩ => ⟨S128x64, .f32⟩
  | .local _ .vmem, ⟨24, _⟩ => ⟨S1x64, .f32⟩
  | .local _ .vmem, ⟨25, _⟩ => ⟨S2000x64, .f32⟩
  | .local _ .vmem, ⟨26, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_call0_c : Ref sig .tc := ⟨.hbm, 27, rfl⟩
abbrev main_call0_v0 : Ref sig .tc := ⟨.hbm, 28, rfl⟩
abbrev main_call0_v1 : Ref sig .tc := ⟨.hbm, 29, rfl⟩
abbrev main_call0_c_0 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_c_1 : Ref sig .tc := ⟨.hbm, 35, rfl⟩
abbrev main_call0_c_2 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_c_3 : Ref sig .tc := ⟨.hbm, 43, rfl⟩
abbrev main_call0_v12 : Ref sig .tc := ⟨.hbm, 44, rfl⟩
abbrev main_call0_v13 : Ref sig .tc := ⟨.hbm, 45, rfl⟩
abbrev main_call0_v14 : Ref sig .tc := ⟨.hbm, 46, rfl⟩
abbrev main_call0_cst : Ref sig .tc := ⟨.hbm, 47, rfl⟩
abbrev main_call0_v15 : Ref sig .tc := ⟨.hbm, 48, rfl⟩
abbrev main_v12 : Ref sig .tc := ⟨.hbm, 49, rfl⟩
abbrev main_cst_3 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_call1_c : Ref sig .tc := ⟨.hbm, 59, rfl⟩
abbrev main_call1_v0 : Ref sig .tc := ⟨.hbm, 60, rfl⟩
abbrev main_call1_v1 : Ref sig .tc := ⟨.hbm, 61, rfl⟩
abbrev main_call1_c_0 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_call1_v5 : Ref sig .tc := ⟨.hbm, 66, rfl⟩
abbrev main_call1_c_1 : Ref sig .tc := ⟨.hbm, 67, rfl⟩
abbrev main_call1_c_2 : Ref sig .tc := ⟨.hbm, 68, rfl⟩
abbrev main_call1_v6 : Ref sig .tc := ⟨.hbm, 69, rfl⟩
abbrev main_call1_v7 : Ref sig .tc := ⟨.hbm, 70, rfl⟩
abbrev main_call1_v8 : Ref sig .tc := ⟨.hbm, 71, rfl⟩
abbrev main_call1_v9 : Ref sig .tc := ⟨.hbm, 72, rfl⟩
abbrev main_call1_v10 : Ref sig .tc := ⟨.hbm, 73, rfl⟩
abbrev main_call1_v11 : Ref sig .tc := ⟨.hbm, 74, rfl⟩
abbrev main_call1_c_3 : Ref sig .tc := ⟨.hbm, 75, rfl⟩
abbrev main_call1_v12 : Ref sig .tc := ⟨.hbm, 76, rfl⟩
abbrev main_call1_v13 : Ref sig .tc := ⟨.hbm, 77, rfl⟩
abbrev main_call1_v14 : Ref sig .tc := ⟨.hbm, 78, rfl⟩
abbrev main_call1_cst : Ref sig .tc := ⟨.hbm, 79, rfl⟩
abbrev main_call1_v15 : Ref sig .tc := ⟨.hbm, 80, rfl⟩
abbrev main_v21 : Ref sig .tc := ⟨.hbm, 81, rfl⟩
abbrev main_cst_4 : Ref sig .tc := ⟨.hbm, 82, rfl⟩
abbrev main_v22 : Ref sig .tc := ⟨.hbm, 83, rfl⟩
abbrev main_v23 : Ref sig .tc := ⟨.hbm, 84, rfl⟩
abbrev main_v24 : Ref sig .tc := ⟨.hbm, 85, rfl⟩
abbrev main_v25 : Ref sig .tc := ⟨.hbm, 86, rfl⟩
abbrev main_v26 : Ref sig .tc := ⟨.hbm, 87, rfl⟩
abbrev main_v27 : Ref sig .tc := ⟨.hbm, 88, rfl⟩
abbrev main_v28 : Ref sig .tc := ⟨.hbm, 89, rfl⟩
abbrev main_v29 : Ref sig .tc := ⟨.hbm, 90, rfl⟩
abbrev main_call2_c : Ref sig .tc := ⟨.hbm, 91, rfl⟩
abbrev main_call2_v0 : Ref sig .tc := ⟨.hbm, 92, rfl⟩
abbrev main_call2_v1 : Ref sig .tc := ⟨.hbm, 93, rfl⟩
abbrev main_call2_c_0 : Ref sig .tc := ⟨.hbm, 94, rfl⟩
abbrev main_call2_v2 : Ref sig .tc := ⟨.hbm, 95, rfl⟩
abbrev main_call2_v3 : Ref sig .tc := ⟨.hbm, 96, rfl⟩
abbrev main_call2_v4 : Ref sig .tc := ⟨.hbm, 97, rfl⟩
abbrev main_call2_v5 : Ref sig .tc := ⟨.hbm, 98, rfl⟩
abbrev main_call2_c_1 : Ref sig .tc := ⟨.hbm, 99, rfl⟩
abbrev main_call2_c_2 : Ref sig .tc := ⟨.hbm, 100, rfl⟩
abbrev main_call2_v6 : Ref sig .tc := ⟨.hbm, 101, rfl⟩
abbrev main_call2_v7 : Ref sig .tc := ⟨.hbm, 102, rfl⟩
abbrev main_call2_v8 : Ref sig .tc := ⟨.hbm, 103, rfl⟩
abbrev main_call2_v9 : Ref sig .tc := ⟨.hbm, 104, rfl⟩
abbrev main_call2_v10 : Ref sig .tc := ⟨.hbm, 105, rfl⟩
abbrev main_call2_v11 : Ref sig .tc := ⟨.hbm, 106, rfl⟩
abbrev main_call2_c_3 : Ref sig .tc := ⟨.hbm, 107, rfl⟩
abbrev main_call2_v12 : Ref sig .tc := ⟨.hbm, 108, rfl⟩
abbrev main_call2_v13 : Ref sig .tc := ⟨.hbm, 109, rfl⟩
abbrev main_call2_v14 : Ref sig .tc := ⟨.hbm, 110, rfl⟩
abbrev main_call2_cst : Ref sig .tc := ⟨.hbm, 111, rfl⟩
abbrev main_call2_v15 : Ref sig .tc := ⟨.hbm, 112, rfl⟩
abbrev main_v30 : Ref sig .tc := ⟨.hbm, 113, rfl⟩
abbrev main_cst_5 : Ref sig .tc := ⟨.hbm, 114, rfl⟩
abbrev main_v31 : Ref sig .tc := ⟨.hbm, 115, rfl⟩
abbrev main_v32 : Ref sig .tc := ⟨.hbm, 116, rfl⟩
abbrev main_v33 : Ref sig .tc := ⟨.hbm, 117, rfl⟩
abbrev main_v34 : Ref sig .tc := ⟨.hbm, 118, rfl⟩
abbrev main_v35 : Ref sig .tc := ⟨.hbm, 119, rfl⟩
abbrev main_v36 : Ref sig .tc := ⟨.hbm, 120, rfl⟩
abbrev main_v37 : Ref sig .tc := ⟨.hbm, 121, rfl⟩
abbrev main_v38 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S800000_S800000x256_0 : S800000.BroadcastsInDim S800000x256 (![0] : Fin 1 → Fin S800000x256.rank)
  bcast_S_S800000x256 : S_.BroadcastsInDim S800000x256 (![] : Fin 0 → Fin S800000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  shapeCasts_S128_S1x128 : S128.ShapeCasts S1x128
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x128_S2000x128_1_0_0_1_n_n_wf : DotDims.WF S2000x256 S256x128 S2000x128 [1] [0] [0] [1] [] []
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x64.size a ≤ S50000x64.size a
  hwx2_5 : ∀ i : grid2.Coords, EltTy.bits .f32 = 32 ∨ (Rect.block (s := S50000x64) S2000x64.size (cc2_transform_5 i) (hinb2_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_v18) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v27) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v36) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v37) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v38) S2000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩
abbrev S800000x256 : Shape := ⟨2, ![800000, 256]⟩
abbrev S1x128 : Shape := ⟨2, ![1, 128]⟩
abbrev S50000x64 : Shape := ⟨2, ![50000, 64]⟩
abbrev S1x64 : Shape := ⟨2, ![1, 64]⟩

abbrev nBuf : Space → Nat
  | .hbm => 122
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S128x256, .f32⟩
  | .hbm, ⟨4, _⟩ => ⟨S256, .f32⟩
  | .hbm, ⟨5, _⟩ => ⟨S256x128, .f32⟩
  | .hbm, ⟨6, _⟩ => ⟨S256x128, .f32⟩
  | .hbm, ⟨7, _⟩ => ⟨S128, .f32⟩
  | .hbm, ⟨8, _⟩ => ⟨S128x64, .f32⟩
  | .hbm, ⟨9, _⟩ => ⟨S128x64, .f32⟩
  | .hbm, ⟨10, _⟩ => ⟨S64, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .f32⟩
  | .hbm, ⟨24, _⟩ => ⟨S_, .f32⟩
  | .hbm, ⟨25, _⟩ => ⟨S50000x128, .f32⟩
  | .hbm, ⟨26, _⟩ => ⟨S800000x1, .i32⟩
  | .hbm, ⟨27, _⟩ => ⟨S50000x128, .f32⟩
  | .hbm, ⟨28, _⟩ => ⟨S_, .f32⟩
  | .hbm, ⟨29, _⟩ => ⟨S800000, .f32⟩
  | .hbm, ⟨30, _⟩ => ⟨S_, .f32⟩
  | .hbm, ⟨31, _⟩ => ⟨S50000, .f32⟩
  | .hbm, ⟨32, _⟩ => ⟨S800000x1, .i32⟩
  | .hbm, ⟨33, _⟩ => ⟨S50000, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000x1, .f32⟩
  | .hbm, ⟨38, _⟩ => ⟨S50000x128, .f32⟩
  | .hbm, ⟨39, _⟩ => ⟨S50000x128, .f32⟩
  | .hbm, ⟨40, _⟩ => ⟨S50000x256, .f32⟩
  | .hbm, ⟨41, _⟩ => ⟨S50000x256, .f32⟩
  | .hbm, ⟨42, _⟩ => ⟨S50000x256, .f32⟩
  | .hbm, ⟨43, _⟩ => ⟨S1x256, .f32⟩
  | .hbm, ⟨44, _⟩ => ⟨S50000x256, .f32⟩
  | .hbm, ⟨45, _⟩ => ⟨S50000x256, .f32⟩
  | .hbm, ⟨46, _⟩ => ⟨S_, .f32⟩
  | .hbm, ⟨47, _⟩ => ⟨S50000x256, .f32⟩
  | .hbm, ⟨48, _⟩ => ⟨S50000x256, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x256, .f32⟩
  | .hbm, ⟨58, _⟩ => ⟨S_, .f32⟩
  | .hbm, ⟨59, _⟩ => ⟨S50000x256, .f32⟩
  | .hbm, ⟨60, _⟩ => ⟨S800000x1, .i32⟩
  | .hbm, ⟨61, _⟩ => ⟨S50000x256, .f32⟩
  | .hbm, ⟨62, _⟩ => ⟨S_, .f32⟩
  | .hbm, ⟨63, _⟩ => ⟨S800000, .f32⟩
  | .hbm, ⟨64, _⟩ => ⟨S_, .f32⟩
  | .hbm, ⟨65, _⟩ => ⟨S50000, .f32⟩
  | .hbm, ⟨66, _⟩ => ⟨S800000x1, .i32⟩
  | .hbm, ⟨67, _⟩ => ⟨S50000, .f32⟩
  | .hbm, ⟨68, _⟩ => ⟨S_, .f32⟩
  | .hbm, ⟨69, _⟩ => ⟨S50000, .f32⟩
  | .hbm, ⟨70, _⟩ => ⟨S50000, .f32⟩
  | .hbm, ⟨71, _⟩ => ⟨S50000x1, .f32⟩
  | .hbm, ⟨72, _⟩ => ⟨S50000x256, .f32⟩
  | .hbm, ⟨73, _⟩ => ⟨S50000x256, .f32⟩
  | .hbm, ⟨74, _⟩ => ⟨S50000x128, .f32⟩
  | .hbm, ⟨75, _⟩ => ⟨S50000x128, .f32⟩
  | .hbm, ⟨76, _⟩ => ⟨S50000x128, .f32⟩
  | .hbm, ⟨77, _⟩ => ⟨S1x128, .f32⟩
  | .hbm, ⟨78, _⟩ => ⟨S50000x128, .f32⟩
  | .hbm, ⟨79, _⟩ => ⟨S50000x128, .f32⟩
  | .hbm, ⟨80, _⟩ => ⟨S_, .f32⟩
  | .hbm, ⟨81, _⟩ => ⟨S50000x128, .f32⟩
  | .hbm, ⟨82, _⟩ => ⟨S50000x128, .f32⟩
  | .hbm, ⟨83, _⟩ => ⟨S_, .i32⟩
  | .hbm, ⟨84, _⟩ => ⟨S800000, .i32⟩
  | .hbm, ⟨85, _⟩ => ⟨S800000, .i1⟩
  | .hbm, ⟨86, _⟩ => ⟨S_, .i32⟩
  | .hbm, ⟨87, _⟩ => ⟨S800000, .i32⟩
  | .hbm, ⟨88, _⟩ => ⟨S800000, .i32⟩
  | .hbm, ⟨89, _⟩ => ⟨S800000, .i32⟩
  | .hbm, ⟨90, _⟩ => ⟨S800000x1, .i32⟩
  | .hbm, ⟨91, _⟩ => ⟨S800000x128, .f32⟩
  | .hbm, ⟨92, _⟩ => ⟨S_, .f32⟩
  | .hbm, ⟨93, _⟩ => ⟨S50000x128, .f32⟩
  | .hbm, ⟨94, _⟩ => ⟨S800000x1, .i32⟩
  | .hbm, ⟨95, _⟩ => ⟨S50000x128, .f32⟩
  | .hbm, ⟨96, _⟩ => ⟨S_, .f32⟩
  | .hbm, ⟨97, _⟩ => ⟨S800000, .f32⟩
  | .hbm, ⟨98, _⟩ => ⟨S_, .f32⟩
  | .hbm, ⟨99, _⟩ => ⟨S50000, .f32⟩
  | .hbm, ⟨100, _⟩ => ⟨S800000x1, .i32⟩
  | .hbm, ⟨101, _⟩ => ⟨S50000, .f32⟩
  | .hbm, ⟨102, _⟩ => ⟨S_, .f32⟩
  | .hbm, ⟨103, _⟩ => ⟨S50000, .f32⟩
  | .hbm, ⟨104, _⟩ => ⟨S50000, .f32⟩
  | .hbm, ⟨105, _⟩ => ⟨S50000x1, .f32⟩
  | .hbm, ⟨106, _⟩ => ⟨S50000x128, .f32⟩
  | .hbm, ⟨107, _⟩ => ⟨S50000x128, .f32⟩
  | .hbm, ⟨108, _⟩ => ⟨S50000x64, .f32⟩
  | .hbm, ⟨109, _⟩ => ⟨S50000x64, .f32⟩
  | .hbm, ⟨110, _⟩ => ⟨S50000x64, .f32⟩
  | .hbm, ⟨111, _⟩ => ⟨S1x64, .f32⟩
  | .hbm, ⟨112, _⟩ => ⟨S50000x64, .f32⟩
  | .hbm, ⟨113, _⟩ => ⟨S50000x64, .f32⟩
  | .hbm, ⟨114, _⟩ => ⟨S50000x64, .f32⟩
  | .hbm, ⟨115, _⟩ => ⟨S50000x64, .f32⟩
  | .hbm, ⟨116, _⟩ => ⟨S_, .f32⟩
  | .hbm, ⟨117, _⟩ => ⟨S50000x64, .f32⟩
  | .hbm, ⟨118, _⟩ => ⟨S50000x64, .f32⟩
  | .hbm, ⟨119, _⟩ => ⟨S_, .f32⟩
  | .hbm, ⟨120, _⟩ => ⟨S50000x64, .f32⟩
  | .hbm, ⟨121, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call0_cst : Ref sig .tc := ⟨.hbm, 46, rfl⟩
abbrev main_call0_v0 : Ref sig .tc := ⟨.hbm, 47, rfl⟩
abbrev main_v29 : Ref sig .tc := ⟨.hbm, 48, rfl⟩
abbrev main_c_4 : Ref sig .tc := ⟨.hbm, 49, rfl⟩
abbrev main_v30 : Ref sig .tc := ⟨.hbm, 50, rfl⟩
abbrev main_v31 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_6 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_9 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_call1_cst : Ref sig .tc := ⟨.hbm, 80, rfl⟩
abbrev main_call1_v0 : Ref sig .tc := ⟨.hbm, 81, rfl⟩
abbrev main_v55 : Ref sig .tc := ⟨.hbm, 82, rfl⟩
abbrev main_c_10 : Ref sig .tc := ⟨.hbm, 83, rfl⟩
abbrev main_v56 : Ref sig .tc := ⟨.hbm, 84, rfl⟩
abbrev main_v57 : Ref sig .tc := ⟨.hbm, 85, rfl⟩
abbrev main_c_11 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_12 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_13 : Ref sig .tc := ⟨.hbm, 96, rfl⟩
abbrev main_v66 : Ref sig .tc := ⟨.hbm, 97, rfl⟩
abbrev main_cst_14 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_15 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_cst_16 : Ref sig .tc := ⟨.hbm, 116, rfl⟩
abbrev main_v83 : Ref sig .tc := ⟨.hbm, 117, rfl⟩
abbrev main_v84 : Ref sig .tc := ⟨.hbm, 118, rfl⟩
abbrev main_cst_17 : Ref sig .tc := ⟨.hbm, 119, rfl⟩
abbrev main_v85 : Ref sig .tc := ⟨.hbm, 120, rfl⟩
abbrev main_v86 : Ref sig .tc := ⟨.hbm, 121, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x128_S50000x128_1_0_0_1_n_n_wf : DotDims.WF S50000x256 S256x128 S50000x128 [1] [0] [0] [1] [] []
  dot_S50000x128_S128x64_S50000x64_1_0_0_1_n_n_wf : DotDims.WF S50000x128 S128x64 S50000x64 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.Sage.Spec.lean ====
/-
  The mathematics shared by the two programs, over the extended reals.

  One layer of the network maps node features `h` to `act (agg · Wl + h · Wr + b)`, where `agg` is the mean of the
  features of a node's in-neighbours. Its dense half at node `r` and output feature `q` is a sum over the input
  features of products, plus the bias, through the activation: `denseAt`. Both programs compute exactly this sum
  (a sum of products in the extended reals may be taken in any order and any grouping).

  The mean divides a node's summed messages by `max deg 1`. One program divides; the other multiplies by the
  reciprocal `1 / max deg 1` computed once. On the extended reals `x / y` IS `x · y⁻¹` whenever `y ≠ 0`, and
  `max d 1 ≥ 1 > 0` whatever `d` is (finite or not), so the two agree for every `x`: `mul_recip_max`.
-/
import Idealize.ShloMosaic.PureOps.Ideal
import Idealize.ShloMosaic.Lib.ValueIdx

noncomputable section

open scoped BigOperators

namespace Cert.Sage

open Idealize.ShloMosaic Idealize.ShloMosaic.ValueIdx

/-- The dense half of a layer at node `r`, output feature `q`: the aggregated features against `Wl`, the node's own
    features against `Wr`, each summed over the `K` input features, plus the bias (kept as a `1 × M` row), through the
    activation `act`. -/
def denseAt {N K M : ℕ} (act : EReal → EReal) (agg h : (⟨2, ![N, K]⟩ : Shape).Idx → EReal)
    (Wl Wr : (⟨2, ![K, M]⟩ : Shape).Idx → EReal) (b : (⟨2, ![1, M]⟩ : Shape).Idx → EReal) (r : Fin N) (q : Fin M) : EReal :=
  act ((∑ k : Fin K, agg (ix2 r k) * Wl (ix2 k q)) + (∑ k : Fin K, h (ix2 r k) * Wr (ix2 k q)) + b (ix2 0 q))

/-- The dense half of a layer as one array: entry `(r, q)` is `denseAt … r q`. -/
def dense {N K M : ℕ} (act : EReal → EReal) (agg h : (⟨2, ![N, K]⟩ : Shape).Idx → EReal)
    (Wl Wr : (⟨2, ![K, M]⟩ : Shape).Idx → EReal) (b : (⟨2, ![1, M]⟩ : Shape).Idx → EReal) :
    (⟨2, ![N, M]⟩ : Shape).Idx → EReal :=
  fun i => denseAt act agg h Wl Wr b (i 0) (i 1)

theorem dense_apply {N K M : ℕ} (act : EReal → EReal) (agg h : (⟨2, ![N, K]⟩ : Shape).Idx → EReal)
    (Wl Wr : (⟨2, ![K, M]⟩ : Shape).Idx → EReal) (b : (⟨2, ![1, M]⟩ : Shape).Idx → EReal) (r : Fin N) (q : Fin M) :
    dense act agg h Wl Wr b (ix2 r q) = denseAt act agg h Wl Wr b r q := rfl

/-- The rectifier `max x 0`. -/
def relu (x : EReal) : EReal := max x 0

/-- A number that is at least one is not zero. -/
theorem max_one_ne_zero (d : EReal) : max d 1 ≠ 0 :=
  ne_of_gt (lt_of_lt_of_le zero_lt_one (le_max_right d 1))

/-- Multiplying by the reciprocal of `max d 1` is dividing by `max d 1`, for EVERY extended real `x` and `d`: the
    divisor is at least one, hence not zero, and off zero the quotient is the product with the inverse. -/
theorem mul_recip_max (x d : EReal) : x * Ideal.div 1 (max d 1) = Ideal.div x (max d 1) := by
  have h : max d 1 ≠ 0 := max_one_ne_zero d
  simp only [Ideal.div, if_neg h, one_mul]

end Cert.Sage

end
-- ==== Proof.Sage.KTerms.lean ====
/-
  The host-side pieces of the kernel's program, named as whole-array functions at the extended reals: the source and
  destination node of every edge read off the edge list, the in-degree reciprocal `1 / max deg 1`, the row gather with
  its in-bounds mask (an out-of-range source id reads a fill value instead of a row), and the mean aggregation
  (messages summed per destination node, times the reciprocal).
-/
import proofs.«423074_j90761248899605_1_alg».proof.Proof.Gen.KernelIdeal
import Idealize.ShloMosaic.PureOps.Ideal
import proofs.«423074_j90761248899605_1_alg».proof.Proof.Sage.Spec

noncomputable section

namespace Cert.KernelIdeal.Sage

open Cert.KernelIdeal Cert.KernelIdeal.Facts₀ Cert.KernelIdeal.Facts Idealize.ShloMosaic

/-- Row 0 of the edge list: the source node of every edge. -/
def srcOf (e : IVec S2x800000 32) : IVec S800000 32 :=
  shapeCast _ (extractStridedSlice S1x800000 ![0, 0] e slices_S2x800000_S1x800000_0_0) shapeCasts_S1x800000_S800000

/-- Row 1 of the edge list: the destination node of every edge. -/
def dstOf (e : IVec S2x800000 32) : IVec S800000 32 :=
  shapeCast _ (extractStridedSlice S1x800000 ![1, 0] e slices_S2x800000_S1x800000_1_0) shapeCasts_S1x800000_S800000

/-- The gather's start indices: a negative id counts from the end (`id + 50000`), as a column. -/
def wrapIdx (src : IVec S800000 32) : IVec S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- Per edge: is the start index inside `[0, 49999]`? -/
def inBounds (idx : IVec S800000x1 32) : IVec S800000 1 :=
  Host.reduce IntOp.andi
    (andi (cmpi .sge idx (broadcastInDim S800000x1 ![] bcast_S_S800000x1 (constantI S_ 32 0#32)))
      (cmpi .sle idx (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- The masked row gather over 128 features: the gathered row where the id is in bounds, the fill value elsewhere. -/
def take128 (x : FVec Ideal S50000x128 .f32) (src : IVec S800000 32) : FVec Ideal S800000x128 .f32 :=
  select (broadcastInDim S800000x128 ![0] bcast_S800000_S800000x128_0 (inBounds (wrapIdx src)))
    (Host.gather gather_S50000x128_S800000x1_S800000x128_1_0_n_n_0_1_1128 x (wrapIdx src))
    (broadcastInDim S800000x128 ![] bcast_S_S800000x128 (constant S_ .f32 0x7FC00000#32))

/-- The masked row gather over 256 features. -/
def take256 (x : FVec Ideal S50000x256 .f32) (src : IVec S800000 32) : FVec Ideal S800000x256 .f32 :=
  select (broadcastInDim S800000x256 ![0] bcast_S800000_S800000x256_0 (inBounds (wrapIdx src)))
    (Host.gather gather_S50000x256_S800000x1_S800000x256_1_0_n_n_0_1_1256 x (wrapIdx src))
    (broadcastInDim S800000x256 ![] bcast_S_S800000x256 (constant S_ .f32 0x7FC00000#32))

/-- `max deg 1` per node, `deg` the number of edges into the node (a sum of ones). -/
def maxDeg (dst : IVec S800000 32) : FVec Ideal S50000 .f32 :=
  maximumf
    (Host.scatterAdd scatter_S50000_S800000x1_S800000_n_0_0_1
      (broadcastInDim S50000 ![] bcast_S_S50000 (constant S_ .f32 0x00000000#32))
      (broadcastInDim S800000x1 ![0] bcast_S800000_S800000x1_0 dst)
      (broadcastInDim S800000 ![] bcast_S_S800000 (constant S_ .f32 0x3F800000#32)))
    (broadcastInDim S50000 ![] bcast_S_S50000 (constant S_ .f32 0x3F800000#32))

/-- The reciprocal `1 / max deg 1` per node. -/
def invDeg (dst : IVec S800000 32) : FVec Ideal S50000 .f32 :=
  Host.divf (broadcastInDim S50000 ![] bcast_S_S50000 (constant S_ .f32 0x3F800000#32)) (maxDeg dst)

/-- Messages summed per destination node, times the per-node factor `inv`, over 128 features. -/
def agg128 (msg : FVec Ideal S800000x128 .f32) (dst : IVec S800000 32) (inv : FVec Ideal S50000 .f32) : FVec Ideal S50000x128 .f32 :=
  mulf
    (Host.scatterAdd scatter_S50000x128_S800000x1_S800000x128_1_0_0_1
      (broadcastInDim S50000x128 ![] bcast_S_S50000x128 (constant S_ .f32 0x00000000#32))
      (broadcastInDim S800000x1 ![0] bcast_S800000_S800000x1_0 dst) msg)
    (broadcastInDim S50000x128 ![0, 1] bcast_S50000x1_S50000x128_0_1 (broadcastInDim S50000x1 ![0] bcast_S50000_S50000x1_0 inv))

/-- The same over 256 features. -/
def agg256 (msg : FVec Ideal S800000x256 .f32) (dst : IVec S800000 32) (inv : FVec Ideal S50000 .f32) : FVec Ideal S50000x256 .f32 :=
  mulf
    (Host.scatterAdd scatter_S50000x256_S800000x1_S800000x256_1_0_0_1
      (broadcastInDim S50000x256 ![] bcast_S_S50000x256 (constant S_ .f32 0x00000000#32))
      (broadcastInDim S800000x1 ![0] bcast_S800000_S800000x1_0 dst) msg)
    (broadcastInDim S50000x256 ![0, 1] bcast_S50000x1_S50000x256_0_1 (broadcastInDim S50000x1 ![0] bcast_S50000_S50000x1_0 inv))

/-- The kernel's first hidden layer: the masked gather, the mean aggregation by the reciprocal, then the dense half with the
    rectifier; the bias enters as a `1 × 256` row. -/
def layer1 (x : FVec Ideal S50000x128 .f32) (e : IVec S2x800000 32) (Wl Wr : FVec Ideal S128x256 .f32) (b : FVec Ideal S256 .f32) :
    FVec Ideal S50000x256 .f32 :=
  Cert.Sage.dense (N := 50000) (K := 128) (M := 256) Cert.Sage.relu
    (agg128 (take128 x (srcOf e)) (dstOf e) (invDeg (dstOf e))) x Wl Wr (shapeCast _ b shapeCasts_S256_S1x256)

/-- The second hidden layer, from the first. -/
def layer2 (g : FVec Ideal S50000x256 .f32) (e : IVec S2x800000 32) (Wl Wr : FVec Ideal S256x128 .f32) (b : FVec Ideal S128 .f32) :
    FVec Ideal S50000x128 .f32 :=
  Cert.Sage.dense (N := 50000) (K := 256) (M := 128) Cert.Sage.relu
    (agg256 (take256 g (srcOf e)) (dstOf e) (invDeg (dstOf e))) g Wl Wr (shapeCast _ b shapeCasts_S128_S1x128)

/-- The output layer, from the second hidden layer: the logistic function in the rectifier's place. -/
def layer3 (g : FVec Ideal S50000x128 .f32) (e : IVec S2x800000 32) (Wl Wr : FVec Ideal S128x64 .f32) (b : FVec Ideal S64 .f32) :
    FVec Ideal S50000x64 .f32 :=
  Cert.Sage.dense (N := 50000) (K := 128) (M := 64) Ideal.logistic
    (agg128 (take128 g (srcOf e)) (dstOf e) (invDeg (dstOf e))) g Wl Wr (shapeCast _ b shapeCasts_S64_S1x64)

end Cert.KernelIdeal.Sage

end
-- ==== Proof.Sage.Region0.lean ====
import proofs.«423074_j90761248899605_1_alg».proof.Proof.Gen.KernelIdeal.Frame
import proofs.«423074_j90761248899605_1_alg».proof.Proof.Sage.Spec
import Idealize.ShloMosaic.PureOps.Ideal.Laws
import Idealize.ShloMosaic.Lib.Pipeline.Value
import Idealize.ShloMosaic.Lib.ValueIdx

set_option maxRecDepth 16384

noncomputable section

namespace Cert.KernelIdeal.Sage

open Cert.KernelIdeal Cert.KernelIdeal.Gen Idealize.ShloMosaic Idealize.ShloMosaic.TcCoe Idealize.SL.Sem
open Idealize.ShloMosaic.Pipeline (Dat Cfg Window)
open Idealize.ShloMosaic.ValueIdx
open Cert.KernelIdeal.Facts₀ Cert.KernelIdeal.Facts
open scoped BigOperators

namespace Block0

/-! ## The block product at an index

The matrix unit contracts the second axis of its left operand against the first axis of its right operand: at output
index `(p, q)` and contraction index `k` it reads the left operand at `(p, k)` and the right one at `(k, q)`. -/

theorem lhs_dot0_0 (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
theorem lhs_dot0_1 (i : S2000x256.Idx) (q : dot_S2000x128_S128x256_S2000x256_1_0_0_1_n_n.contr.Idx) :
    (dot_S2000x128_S128x256_S2000x256_1_0_0_1_n_n.lhsIdx i q 1).val = (q ⟨0, by decide⟩).val :=
  dot_S2000x128_S128x256_S2000x256_1_0_0_1_n_n.lhsIdx_val_of_single rfl i q
theorem rhs_dot0_0 (i : S2000x256.Idx) (q : dot_S2000x128_S128x256_S2000x256_1_0_0_1_n_n.contr.Idx) :
    (dot_S2000x128_S128x256_S2000x256_1_0_0_1_n_n.rhsIdx i q 0).val = (q ⟨0, by decide⟩).val :=
  dot_S2000x128_S128x256_S2000x256_1_0_0_1_n_n.rhsIdx_val_of_single rfl i q
theorem rhs_dot0_1 (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- A block product into the zero accumulator, at `(p, q)`: the sum over the 128 input features of the products. -/
theorem matmul0_apply (a : FVec Ideal S2000x128 .bf16) (w : FVec Ideal S128x256 .bf16) (p : Fin 2000) (q : Fin 256) :
    matmul dot_S2000x128_S128x256_S2000x256_1_0_0_1_n_n none a w (constant S2000x256 .f32 0x00000000#32) (ix2 p q)
      = ∑ k : Fin 128, a (ix2 p k) * w (ix2 k q) := by
  refine (Ideal.matmul_constant_zero_apply dot_S2000x128_S128x256_S2000x256_1_0_0_1_n_n none a w (ix2 p q)).trans ?_
  rw [← Equiv.sum_comp (contrEquiv1 dot_S2000x128_S128x256_S2000x256_1_0_0_1_n_n 128 rfl rfl).symm]
  refine Finset.sum_congr rfl fun k _ => ?_
  have hk := contrEquiv1_symm_val dot_S2000x128_S128x256_S2000x256_1_0_0_1_n_n 128 rfl rfl k
  have el : dot_S2000x128_S128x256_S2000x256_1_0_0_1_n_n.lhsIdx (ix2 p q) ((contrEquiv1 dot_S2000x128_S128x256_S2000x256_1_0_0_1_n_n 128 rfl rfl).symm k) = ix2 p k := funext fun a => Fin.ext (by
    match a with
    | ⟨0, _⟩ => exact lhs_dot0_0 _ _
    | ⟨1, _⟩ => exact (lhs_dot0_1 _ _).trans hk)
  have er : dot_S2000x128_S128x256_S2000x256_1_0_0_1_n_n.rhsIdx (ix2 p q) ((contrEquiv1 dot_S2000x128_S128x256_S2000x256_1_0_0_1_n_n 128 rfl rfl).symm k) = ix2 k q := funext fun a => Fin.ext (by
    match a with
    | ⟨0, _⟩ => exact (rhs_dot0_0 _ _).trans hk
    | ⟨1, _⟩ => exact rhs_dot0_1 _ _)
  rw [el, er]

/-- The bias row, broadcast down the block's 2000 rows, read at `(p, q)` is the row at `(0, q)`. -/
theorem bias0_apply (b : Vec Ideal S1x256 .f32) (h : S1x256.Broadcasts S2000x256) (p : Fin 2000) (q : Fin 256) :
    broadcastTo S2000x256 b h (ix2 p q) = b (ix2 0 q) :=
  broadcastTo_apply b h (ix2 p q) (ix2 0 q) (fun a => match a with
    | ⟨0, _⟩ => by show 0 = if (1 : Nat) = 1 then 0 else p.val; rw [if_pos rfl]
    | ⟨1, _⟩ => by show q.val = if (256 : Nat) = 1 then 0 else q.val; rw [if_neg (by decide)])

/-- The body's one stored value at `(p, q)` of the block: the rectifier of the two sums of products plus the bias. -/
theorem pay0_apply (x0 x1 : Vec Ideal S2000x128 .f32) (x2 x3 : Vec Ideal S128x256 .f32) (x4 : Vec Ideal S1x256 .f32)
    (p : Fin 2000) (q : Fin 256) :
    k0_pay1 (F := Ideal) x0 x1 x2 x3 x4 (ix2 p q)
      = Cert.Sage.relu ((∑ k : Fin 128, x0 (ix2 p k) * x2 (ix2 k q)) + (∑ k : Fin 128, x1 (ix2 p k) * x3 (ix2 k q)) + x4 (ix2 0 q)) := by
  unfold k0_pay1
  simp only [shapeCast_self]
  rw [maximumf_apply, addf_apply, addf_apply, matmul0_apply, matmul0_apply, bias0_apply]
  simp only [truncf_apply]
  show max _ (Ideal.ofBits .f32 0x00000000#32) = _
  rw [Ideal.ofBits_zero_f32]
  rfl

/-! ## From the blocks to the array

Grid point `t` works on rows `2000 t … 2000 t + 1999` of the node arrays and of the output; the two weight matrices
and the bias row are fetched whole at every point. -/

theorem offsets_zero : (![0, 0] : Fin 2 → Nat) = fun _ => 0 := funext fun a => by fin_cases a <;> rfl

/-- The printed block index maps, decided over the 25 points: the node arrays and the output move down the rows with
    the point; the weights and the bias stay at block `(0, 0)`. -/
theorem block_index0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

section Blocks
variable (V : (c : Dev nD) → (b : Ref sig .tc) → Buf (Elt Ideal) ((c : Thread nD τ).loc b)) (c : Dev nD)

/-- Row `p` of the aggregated features' block at point `t` is row `r = 2000 t + p` of the array. -/
theorem agg_block0 (t : Fin cfg0.N) (p : Fin 2000) (k : Fin 128) (r : Fin 50000) (hr : r.val = t.val * 2000 + p.val) :
    (iblk0 V c 0 t : Vec Ideal S2000x128 .f32) (ix2 p k) = (V c main_v18 : S50000x128.Idx → EReal) (ix2 r k) := by
  obtain ⟨e, e', -⟩ := block_index0 t
  unfold iblk0
  rw [View.read_apply]
  show V c main_v18 _ = V c main_v18 _
  refine congrArg _ (funext fun a => Fin.ext ?_)
  match a with
  | ⟨0, _⟩ => show win0_0.index t (0 : Fin 2) * 2000 + 1 * p.val = r.val; rw [e, hr]; omega
  | ⟨1, _⟩ => show win0_0.index t (1 : Fin 2) * 128 + 1 * k.val = k.val; rw [e']; omega

/-- Row `p` of the node features' block at point `t` is row `r = 2000 t + p` of the array. -/
theorem feat_block0 (t : Fin cfg0.N) (p : Fin 2000) (k : Fin 128) (r : Fin 50000) (hr : r.val = t.val * 2000 + p.val) :
    (iblk0 V c 1 t : Vec Ideal S2000x128 .f32) (ix2 p k) = (V c main_arg0 : S50000x128.Idx → EReal) (ix2 r k) := by
  obtain ⟨-, -, e, e', -⟩ := block_index0 t
  unfold iblk0
  rw [View.read_apply]
  show V c main_arg0 _ = V c main_arg0 _
  refine congrArg _ (funext fun a => Fin.ext ?_)
  match a with
  | ⟨0, _⟩ => show win0_1.index t (0 : Fin 2) * 2000 + 1 * p.val = r.val; rw [e, hr]; omega
  | ⟨1, _⟩ => show win0_1.index t (1 : Fin 2) * 128 + 1 * k.val = k.val; rw [e']; omega

/-- The first weight matrix's block at every point is the matrix. -/
theorem wl_block0 (t : Fin cfg0.N) (k : Fin 128) (q : Fin 256) :
    (iblk0 V c 2 t : Vec Ideal S128x256 .f32) (ix2 k q) = (V c main_arg2 : S128x256.Idx → EReal) (ix2 k q) := by
  obtain ⟨-, -, -, -, e, e', -⟩ := block_index0 t
  unfold iblk0
  rw [View.read_apply]
  show V c main_arg2 _ = V c main_arg2 _
  refine congrArg _ (funext fun a => Fin.ext ?_)
  match a with
  | ⟨0, _⟩ => show win0_2.index t (0 : Fin 2) * 128 + 1 * k.val = k.val; rw [e]; omega
  | ⟨1, _⟩ => show win0_2.index t (1 : Fin 2) * 256 + 1 * q.val = q.val; rw [e']; omega

/-- The second weight matrix's block at every point is the matrix. -/
theorem wr_block0 (t : Fin cfg0.N) (k : Fin 128) (q : Fin 256) :
    (iblk0 V c 3 t : Vec Ideal S128x256 .f32) (ix2 k q) = (V c main_arg3 : S128x256.Idx → EReal) (ix2 k q) := by
  obtain ⟨-, -, -, -, -, -, e, e', -⟩ := block_index0 t
  unfold iblk0
  rw [View.read_apply]
  show V c main_arg3 _ = V c main_arg3 _
  refine congrArg _ (funext fun a => Fin.ext ?_)
  match a with
  | ⟨0, _⟩ => show win0_3.index t (0 : Fin 2) * 128 + 1 * k.val = k.val; rw [e]; omega
  | ⟨1, _⟩ => show win0_3.index t (1 : Fin 2) * 256 + 1 * q.val = q.val; rw [e']; omega

/-- The bias row's block at every point is the row. -/
theorem bias_block0 (t : Fin cfg0.N) (q : Fin 256) :
    (iblk0 V c 4 t : Vec Ideal S1x256 .f32) (ix2 0 q) = (V c main_v19 : S1x256.Idx → EReal) (ix2 0 q) := by
  obtain ⟨-, -, -, -, -, -, -, -, e, e', -⟩ := block_index0 t
  unfold iblk0
  rw [View.read_apply]
  show V c main_v19 _ = V c main_v19 _
  refine congrArg _ (funext fun a => Fin.ext ?_)
  match a with
  | ⟨0, _⟩ => show win0_4.index t (0 : Fin 2) * 1 + 1 * 0 = 0; rw [e]
  | ⟨1, _⟩ => show win0_4.index t (1 : Fin 2) * 256 + 1 * q.val = q.val; rw [e']; omega

/-- The array the region leaves: the dense half of the layer of the five arrays as the region finds them. -/
abbrev layer0 : S50000x256.Idx → EReal :=
  Cert.Sage.dense (N := 50000) (K := 128) (M := 256) Cert.Sage.relu
    (V c main_v18) (V c main_arg0) (V c main_arg2) (V c main_arg3) (V c main_v19)

/-- What point `t` writes back is block `t` of that array. -/
theorem flushed0_eq (t : Fin cfg0.N) :
    (dat0 (F := Ideal) V c).flushed 5 t = ((cfg0.win 5).blk t).view.read (Elt Ideal) (layer0 V c) := by
  show (cfg0.win 5).cut (grid0.coords t) ((dat0 V c).after 5 t) = _
  rw [after0_5]
  unfold out0_5
  rw [View.canon_unit_zero offsets_zero]
  simp only [View.ld_unit_zero (S := S2000x128) offsets_zero, View.ld_unit_zero (S := S128x256) offsets_zero, View.ld_unit_zero (S := S1x256) offsets_zero]
  refine funext fun (j : S2000x256.Idx) => ?_
  obtain ⟨p, q, rfl⟩ : ∃ (p : Fin 2000) (q : Fin 256), j = ix2 p q := ⟨j 0, j 1, eq_ix2 j⟩
  obtain ⟨-, -, -, -, -, -, -, -, -, -, e, e'⟩ := block_index0 t
  have ht : t.val < 25 := t.isLt
  have hr : t.val * 2000 + p.val < 50000 := by omega
  have hemb : ((cfg0.win 5).blk t).view.emb (ix2 p q) = (ix2 (⟨t.val * 2000 + p.val, hr⟩ : Fin 50000) q : S50000x256.Idx) :=
    funext fun a => Fin.ext (by
      match a with
      | ⟨0, _⟩ => show win0_5.index t (0 : Fin 2) * 2000 + 1 * p.val = t.val * 2000 + p.val; rw [e]; omega
      | ⟨1, _⟩ => show win0_5.index t (1 : Fin 2) * 256 + 1 * q.val = q.val; rw [e']; omega)
  refine (pay0_apply _ _ _ _ _ p q).trans ?_
  rw [View.read_apply, hemb]
  show _ = Cert.Sage.denseAt (N := 50000) (K := 128) (M := 256) Cert.Sage.relu
    (V c main_v18) (V c main_arg0) (V c main_arg2) (V c main_arg3) (V c main_v19) (⟨t.val * 2000 + p.val, hr⟩ : Fin 50000) q
  unfold Cert.Sage.denseAt
  refine congrArg Cert.Sage.relu ?_
  refine congrArg₂ (· + ·) (congrArg₂ (· + ·) ?_ ?_) ?_
  · exact Finset.sum_congr rfl fun k _ => by rw [agg_block0 V c t p k ⟨t.val * 2000 + p.val, hr⟩ rfl, wl_block0 V c t k q]
  · exact Finset.sum_congr rfl fun k _ => by rw [feat_block0 V c t p k ⟨t.val * 2000 + p.val, hr⟩ rfl, wr_block0 V c t k q]
  · exact bias_block0 V c t q

/-- An index of the output array is in point `t`'s block iff each coordinate is in the block's range on its axis. -/
theorem mem_block0 (t : Fin cfg0.N) (i : S50000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v20).slice (win0_5.rect t)).set ↔ _
  rw [View.set_slice_whole, Rect.mem_set_unit]
  exact Iff.rfl

end Blocks

end Block0

open Block0

/-- The first pallas_call's output array after the region, whatever the buffers hold when the region is entered (`V`):
    the dense half of layer 1 of the five arrays its windows read. Every row `r` is in the block of point `r / 2000`,
    so the 25 blocks cover the array. -/
theorem region0_value (V : (c : Dev nD) → (b : Ref sig .tc) → Buf (Elt Ideal) ((c : Thread nD τ).loc b)) (c : Dev nD) :
    (dat0 (F := Ideal) V c).arrAt 5 cfg0.N
      = Cert.Sage.dense (N := 50000) (K := 128) (M := 256) Cert.Sage.relu
          (V c main_v18) (V c main_arg0) (V c main_arg2) (V c main_arg3) (V c main_v19) :=
  (dat0 (F := Ideal) V c).arrAt_eq_of_cover 5 (layer0 V c) (fun t _ => flushed0_eq V c t) fun i => by
    have hi0 : (i 0).val < 50000 := (i 0).isLt
    have hi1 : (i 1).val < 256 := (i 1).isLt
    have hN : grid0.N = 25 := by decide
    refine ⟨⟨(i 0).val / 2000, by rw [show cfg0.N = 25 from hN]; omega⟩, flush0_5 _, ?_⟩
    rw [mem_block0]
    obtain ⟨-, -, -, -, -, -, -, -, -, -, e, e'⟩ := block_index0 ⟨(i 0).val / 2000, by rw [show cfg0.N = 25 from hN]; omega⟩
    intro a
    match a with
    | ⟨0, _⟩ =>
      show win0_5.index _ (0 : Fin 2) * 2000 ≤ (i 0).val ∧ (i 0).val < win0_5.index _ (0 : Fin 2) * 2000 + 2000
      rw [e]; show (i 0).val / 2000 * 2000 ≤ (i 0).val ∧ (i 0).val < (i 0).val / 2000 * 2000 + 2000; omega
    | ⟨1, _⟩ =>
      show win0_5.index _ (1 : Fin 2) * 256 ≤ (i 1).val ∧ (i 1).val < win0_5.index _ (1 : Fin 2) * 256 + 256
      rw [e']; omega

end Cert.KernelIdeal.Sage

end
-- ==== Proof.Sage.Payload.lean ====
/-
  The kernel bodies' stored values, read entry by entry of a 2000-row block.

  Each body casts its two feature blocks and its two weight matrices to sixteen bits (the identity on the extended
  reals), forms two matrix products accumulated into zero, adds them, adds the bias row spread over the block's rows,
  and applies the activation. At row `p` and output feature `q` a product is the sum over the input features `k` of
  `l (p, k) · r (k, q)`; the bias read there is the row's entry `(0, q)`; the rectifier is `max · 0` (the constant's
  bit pattern denotes `0`).
-/
import proofs.«423074_j90761248899605_1_alg».proof.Proof.Gen.KernelIdeal.Skeleton
import proofs.«423074_j90761248899605_1_alg».proof.Proof.Sage.Spec
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Sage

open Cert.KernelIdeal Cert.KernelIdeal.Gen Cert.KernelIdeal.Facts₀ Cert.KernelIdeal.Facts Idealize.ShloMosaic Idealize.ShloMosaic.ValueIdx

/-- The left operand's row coordinate is the output's row. -/
theorem lhs_mm1_0 (i : S2000x128.Idx) (c : dot_S2000x256_S256x128_S2000x128_1_0_0_1_n_n.contr.Idx) :
    (dot_S2000x256_S256x128_S2000x128_1_0_0_1_n_n.lhsIdx i c 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
/-- The left operand's column coordinate is the summation index. -/
theorem lhs_mm1_1 (i : S2000x128.Idx) (c : dot_S2000x256_S256x128_S2000x128_1_0_0_1_n_n.contr.Idx) :
    (dot_S2000x256_S256x128_S2000x128_1_0_0_1_n_n.lhsIdx i c 1).val = (c ⟨0, by decide⟩).val :=
  dot_S2000x256_S256x128_S2000x128_1_0_0_1_n_n.lhsIdx_val_of_single rfl i c
/-- The right operand's row coordinate is the summation index. -/
theorem rhs_mm1_0 (i : S2000x128.Idx) (c : dot_S2000x256_S256x128_S2000x128_1_0_0_1_n_n.contr.Idx) :
    (dot_S2000x256_S256x128_S2000x128_1_0_0_1_n_n.rhsIdx i c 0).val = (c ⟨0, by decide⟩).val :=
  dot_S2000x256_S256x128_S2000x128_1_0_0_1_n_n.rhsIdx_val_of_single rfl i c
/-- The right operand's column coordinate is the output's column. -/
theorem rhs_mm1_1 (i : S2000x128.Idx) (c : dot_S2000x256_S256x128_S2000x128_1_0_0_1_n_n.contr.Idx) :
    (dot_S2000x256_S256x128_S2000x128_1_0_0_1_n_n.rhsIdx i c 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- A `2000 × 256` by `256 × 128` product accumulated into zero, at entry `(p, q)`: the sum over `k` of `l (p, k) · r (k, q)`. -/
theorem mm1_apply (l : FVec Ideal S2000x256 .bf16) (r : FVec Ideal S256x128 .bf16) (p : Fin 2000) (q : Fin 128) :
    matmul dot_S2000x256_S256x128_S2000x128_1_0_0_1_n_n none l r (constant (F := Ideal) S2000x128 .f32 0x00000000#32) (ix2 p q)
      = ∑ k : Fin 256, l (ix2 p k) * r (ix2 k q) := by
  refine (Ideal.matmul_constant_zero_apply dot_S2000x256_S256x128_S2000x128_1_0_0_1_n_n none l r (ix2 p q)).trans ?_
  rw [← Equiv.sum_comp (contrEquiv1 dot_S2000x256_S256x128_S2000x128_1_0_0_1_n_n 256 rfl rfl).symm]
  refine Finset.sum_congr rfl fun k _ => ?_
  have hk := contrEquiv1_symm_val dot_S2000x256_S256x128_S2000x128_1_0_0_1_n_n 256 rfl rfl k
  have el : dot_S2000x256_S256x128_S2000x128_1_0_0_1_n_n.lhsIdx (ix2 p q) ((contrEquiv1 dot_S2000x256_S256x128_S2000x128_1_0_0_1_n_n 256 rfl rfl).symm k) = ix2 p k := funext fun a => Fin.ext (by
    match a with
    | ⟨0, _⟩ => exact lhs_mm1_0 _ _
    | ⟨1, _⟩ => exact (lhs_mm1_1 _ _).trans hk)
  have er : dot_S2000x256_S256x128_S2000x128_1_0_0_1_n_n.rhsIdx (ix2 p q) ((contrEquiv1 dot_S2000x256_S256x128_S2000x128_1_0_0_1_n_n 256 rfl rfl).symm k) = ix2 k q := funext fun a => Fin.ext (by
    match a with
    | ⟨0, _⟩ => exact (rhs_mm1_0 _ _).trans hk
    | ⟨1, _⟩ => exact rhs_mm1_1 _ _)
  rw [el, er]

/-- The left operand's row coordinate is the output's row. -/
theorem lhs_mm2_0 (i : S2000x64.Idx) (c : dot_S2000x128_S128x64_S2000x64_1_0_0_1_n_n.contr.Idx) :
    (dot_S2000x128_S128x64_S2000x64_1_0_0_1_n_n.lhsIdx i c 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
/-- The left operand's column coordinate is the summation index. -/
theorem lhs_mm2_1 (i : S2000x64.Idx) (c : dot_S2000x128_S128x64_S2000x64_1_0_0_1_n_n.contr.Idx) :
    (dot_S2000x128_S128x64_S2000x64_1_0_0_1_n_n.lhsIdx i c 1).val = (c ⟨0, by decide⟩).val :=
  dot_S2000x128_S128x64_S2000x64_1_0_0_1_n_n.lhsIdx_val_of_single rfl i c
/-- The right operand's row coordinate is the summation index. -/
theorem rhs_mm2_0 (i : S2000x64.Idx) (c : dot_S2000x128_S128x64_S2000x64_1_0_0_1_n_n.contr.Idx) :
    (dot_S2000x128_S128x64_S2000x64_1_0_0_1_n_n.rhsIdx i c 0).val = (c ⟨0, by decide⟩).val :=
  dot_S2000x128_S128x64_S2000x64_1_0_0_1_n_n.rhsIdx_val_of_single rfl i c
/-- The right operand's column coordinate is the output's column. -/
theorem rhs_mm2_1 (i : S2000x64.Idx) (c : dot_S2000x128_S128x64_S2000x64_1_0_0_1_n_n.contr.Idx) :
    (dot_S2000x128_S128x64_S2000x64_1_0_0_1_n_n.rhsIdx i c 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- A `2000 × 128` by `128 × 64` product accumulated into zero, at entry `(p, q)`. -/
theorem mm2_apply (l : FVec Ideal S2000x128 .bf16) (r : FVec Ideal S128x64 .bf16) (p : Fin 2000) (q : Fin 64) :
    matmul dot_S2000x128_S128x64_S2000x64_1_0_0_1_n_n none l r (constant (F := Ideal) S2000x64 .f32 0x00000000#32) (ix2 p q)
      = ∑ k : Fin 128, l (ix2 p k) * r (ix2 k q) := by
  refine (Ideal.matmul_constant_zero_apply dot_S2000x128_S128x64_S2000x64_1_0_0_1_n_n none l r (ix2 p q)).trans ?_
  rw [← Equiv.sum_comp (contrEquiv1 dot_S2000x128_S128x64_S2000x64_1_0_0_1_n_n 128 rfl rfl).symm]
  refine Finset.sum_congr rfl fun k _ => ?_
  have hk := contrEquiv1_symm_val dot_S2000x128_S128x64_S2000x64_1_0_0_1_n_n 128 rfl rfl k
  have el : dot_S2000x128_S128x64_S2000x64_1_0_0_1_n_n.lhsIdx (ix2 p q) ((contrEquiv1 dot_S2000x128_S128x64_S2000x64_1_0_0_1_n_n 128 rfl rfl).symm k) = ix2 p k := funext fun a => Fin.ext (by
    match a with
    | ⟨0, _⟩ => exact lhs_mm2_0 _ _
    | ⟨1, _⟩ => exact (lhs_mm2_1 _ _).trans hk)
  have er : dot_S2000x128_S128x64_S2000x64_1_0_0_1_n_n.rhsIdx (ix2 p q) ((contrEquiv1 dot_S2000x128_S128x64_S2000x64_1_0_0_1_n_n 128 rfl rfl).symm k) = ix2 k q := funext fun a => Fin.ext (by
    match a with
    | ⟨0, _⟩ => exact (rhs_mm2_0 _ _).trans hk
    | ⟨1, _⟩ => exact rhs_mm2_1 _ _)
  rw [el, er]

/-- The bias row spread over the block's rows reads, at row `p` and feature `q`, the row's entry `q`. -/
theorem brow128_apply (y : FVec Ideal S1x128 .f32) (hb : S1x128.Broadcasts S2000x128) (p : Fin 2000) (q : Fin 128) :
    broadcastTo S2000x128 y hb (ix2 p q) = y (ix2 0 q) :=
  broadcastTo_apply y hb (ix2 p q) (ix2 0 q) (fun a => match a with
    | ⟨0, _⟩ => by show 0 = if (1 : Nat) = 1 then 0 else p.val; rw [if_pos rfl]
    | ⟨1, _⟩ => by show q.val = if (128 : Nat) = 1 then 0 else q.val; rw [if_neg (by decide)])

/-- The bias row spread over the block's rows reads, at row `p` and feature `q`, the row's entry `q`. -/
theorem brow64_apply (y : FVec Ideal S1x64 .f32) (hb : S1x64.Broadcasts S2000x64) (p : Fin 2000) (q : Fin 64) :
    broadcastTo S2000x64 y hb (ix2 p q) = y (ix2 0 q) :=
  broadcastTo_apply y hb (ix2 p q) (ix2 0 q) (fun a => match a with
    | ⟨0, _⟩ => by show 0 = if (1 : Nat) = 1 then 0 else p.val; rw [if_pos rfl]
    | ⟨1, _⟩ => by show q.val = if (64 : Nat) = 1 then 0 else q.val; rw [if_neg (by decide)])

/-- The second kernel body likewise, over 256 input features. -/
theorem pay1_apply (x0 x1 : Vec Ideal S2000x256 .f32) (x2 x3 : Vec Ideal S256x128 .f32) (x4 : Vec Ideal S1x128 .f32)
    (p : Fin 2000) (q : Fin 128) :
    k1_pay1 (F := Ideal) x0 x1 x2 x3 x4 (ix2 p q)
      = Cert.Sage.relu ((∑ k : Fin 256, x0 (ix2 p k) * x2 (ix2 k q)) + (∑ k : Fin 256, x1 (ix2 p k) * x3 (ix2 k q)) + x4 (ix2 0 q)) := by
  unfold k1_pay1 Cert.Sage.relu
  rw [maximumf_apply, addf_apply, addf_apply, mm1_apply, mm1_apply, shapeCast_self, shapeCast_self, shapeCast_self,
    brow128_apply, broadcast_apply]
  exact congrArg (max _) Ideal.ofBits_zero_f32

/-- The third kernel body: the logistic function in the rectifier's place. -/
theorem pay2_apply (x0 x1 : Vec Ideal S2000x128 .f32) (x2 x3 : Vec Ideal S128x64 .f32) (x4 : Vec Ideal S1x64 .f32)
    (p : Fin 2000) (q : Fin 64) :
    k2_pay1 (F := Ideal) x0 x1 x2 x3 x4 (ix2 p q)
      = Ideal.logistic ((∑ k : Fin 128, x0 (ix2 p k) * x2 (ix2 k q)) + (∑ k : Fin 128, x1 (ix2 p k) * x3 (ix2 k q)) + x4 (ix2 0 q)) := by
  unfold k2_pay1
  refine congrArg Ideal.logistic ?_
  rw [addf_apply, addf_apply, mm2_apply, mm2_apply, shapeCast_self, shapeCast_self, shapeCast_self, brow64_apply]
  rfl

end Cert.KernelIdeal.Sage

end
-- ==== Proof.Sage.Region1.lean ====
import proofs.«423074_j90761248899605_1_alg».proof.Proof.Gen.KernelIdeal.Frame
import proofs.«423074_j90761248899605_1_alg».proof.Proof.Sage.Spec
import proofs.«423074_j90761248899605_1_alg».proof.Proof.Sage.Payload
import Idealize.ShloMosaic.PureOps.Ideal.Laws
import Idealize.ShloMosaic.Lib.Pipeline.Value
import Idealize.ShloMosaic.Lib.ValueIdx

set_option maxRecDepth 16384

noncomputable section

namespace Cert.KernelIdeal.Sage

open Cert.KernelIdeal Cert.KernelIdeal.Gen Idealize.ShloMosaic Idealize.ShloMosaic.TcCoe Idealize.SL.Sem
open Idealize.ShloMosaic.Pipeline (Dat Cfg Window)
open Idealize.ShloMosaic.ValueIdx
open scoped BigOperators

namespace Block1

/-! ## From the blocks to the array

Grid point `t` works on rows `2000 t … 2000 t + 1999` of the node arrays and of the output; the two weight matrices
and the bias row are fetched whole at every point. -/

theorem offsets_zero : (![0, 0] : Fin 2 → Nat) = fun _ => 0 := funext fun a => by fin_cases a <;> rfl

/-- The printed block index maps, decided over the 25 points: the node arrays and the output move down the rows with
    the point; the weights and the bias stay at block `(0, 0)`. -/
theorem block_index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

section Blocks
variable (V : (c : Dev nD) → (b : Ref sig .tc) → Buf (Elt Ideal) ((c : Thread nD τ).loc b)) (c : Dev nD)

/-- Row `p` of the aggregated features' block at point `t` is row `r = 2000 t + p` of the array. -/
theorem agg_block1 (t : Fin cfg1.N) (p : Fin 2000) (k : Fin 256) (r : Fin 50000) (hr : r.val = t.val * 2000 + p.val) :
    (iblk1 V c 0 t : Vec Ideal S2000x256 .f32) (ix2 p k) = (V c main_v27 : S50000x256.Idx → EReal) (ix2 r k) := by
  obtain ⟨e, e', -⟩ := block_index1 t
  unfold iblk1
  rw [View.read_apply]
  show V c main_v27 _ = V c main_v27 _
  refine congrArg _ (funext fun a => Fin.ext ?_)
  match a with
  | ⟨0, _⟩ => show win1_0.index t (0 : Fin 2) * 2000 + 1 * p.val = r.val; rw [e, hr]; omega
  | ⟨1, _⟩ => show win1_0.index t (1 : Fin 2) * 256 + 1 * k.val = k.val; rw [e']; omega

/-- Row `p` of the node features' block at point `t` is row `r = 2000 t + p` of the array. -/
theorem feat_block1 (t : Fin cfg1.N) (p : Fin 2000) (k : Fin 256) (r : Fin 50000) (hr : r.val = t.val * 2000 + p.val) :
    (iblk1 V c 1 t : Vec Ideal S2000x256 .f32) (ix2 p k) = (V c main_v20 : S50000x256.Idx → EReal) (ix2 r k) := by
  obtain ⟨-, -, e, e', -⟩ := block_index1 t
  unfold iblk1
  rw [View.read_apply]
  show V c main_v20 _ = V c main_v20 _
  refine congrArg _ (funext fun a => Fin.ext ?_)
  match a with
  | ⟨0, _⟩ => show win1_1.index t (0 : Fin 2) * 2000 + 1 * p.val = r.val; rw [e, hr]; omega
  | ⟨1, _⟩ => show win1_1.index t (1 : Fin 2) * 256 + 1 * k.val = k.val; rw [e']; omega

/-- The first weight matrix's block at every point is the matrix. -/
theorem wl_block1 (t : Fin cfg1.N) (k : Fin 256) (q : Fin 128) :
    (iblk1 V c 2 t : Vec Ideal S256x128 .f32) (ix2 k q) = (V c main_arg5 : S256x128.Idx → EReal) (ix2 k q) := by
  obtain ⟨-, -, -, -, e, e', -⟩ := block_index1 t
  unfold iblk1
  rw [View.read_apply]
  show V c main_arg5 _ = V c main_arg5 _
  refine congrArg _ (funext fun a => Fin.ext ?_)
  match a with
  | ⟨0, _⟩ => show win1_2.index t (0 : Fin 2) * 256 + 1 * k.val = k.val; rw [e]; omega
  | ⟨1, _⟩ => show win1_2.index t (1 : Fin 2) * 128 + 1 * q.val = q.val; rw [e']; omega

/-- The second weight matrix's block at every point is the matrix. -/
theorem wr_block1 (t : Fin cfg1.N) (k : Fin 256) (q : Fin 128) :
    (iblk1 V c 3 t : Vec Ideal S256x128 .f32) (ix2 k q) = (V c main_arg6 : S256x128.Idx → EReal) (ix2 k q) := by
  obtain ⟨-, -, -, -, -, -, e, e', -⟩ := block_index1 t
  unfold iblk1
  rw [View.read_apply]
  show V c main_arg6 _ = V c main_arg6 _
  refine congrArg _ (funext fun a => Fin.ext ?_)
  match a with
  | ⟨0, _⟩ => show win1_3.index t (0 : Fin 2) * 256 + 1 * k.val = k.val; rw [e]; omega
  | ⟨1, _⟩ => show win1_3.index t (1 : Fin 2) * 128 + 1 * q.val = q.val; rw [e']; omega

/-- The bias row's block at every point is the row. -/
theorem bias_block1 (t : Fin cfg1.N) (q : Fin 128) :
    (iblk1 V c 4 t : Vec Ideal S1x128 .f32) (ix2 0 q) = (V c main_v28 : S1x128.Idx → EReal) (ix2 0 q) := by
  obtain ⟨-, -, -, -, -, -, -, -, e, e', -⟩ := block_index1 t
  unfold iblk1
  rw [View.read_apply]
  show V c main_v28 _ = V c main_v28 _
  refine congrArg _ (funext fun a => Fin.ext ?_)
  match a with
  | ⟨0, _⟩ => show win1_4.index t (0 : Fin 2) * 1 + 1 * 0 = 0; rw [e]
  | ⟨1, _⟩ => show win1_4.index t (1 : Fin 2) * 128 + 1 * q.val = q.val; rw [e']; omega

/-- The array the region leaves: the dense half of the layer of the five arrays as the region finds them. -/
abbrev layer1 : S50000x128.Idx → EReal :=
  Cert.Sage.dense (N := 50000) (K := 256) (M := 128) Cert.Sage.relu
    (V c main_v27) (V c main_v20) (V c main_arg5) (V c main_arg6) (V c main_v28)

/-- What point `t` writes back is block `t` of that array. -/
theorem flushed1_eq (t : Fin cfg1.N) :
    (dat1 (F := Ideal) V c).flushed 5 t = ((cfg1.win 5).blk t).view.read (Elt Ideal) (layer1 V c) := by
  show (cfg1.win 5).cut (grid1.coords t) ((dat1 V c).after 5 t) = _
  rw [after1_5]
  unfold out1_5
  rw [View.canon_unit_zero offsets_zero]
  simp only [View.ld_unit_zero (S := S2000x256) offsets_zero, View.ld_unit_zero (S := S256x128) offsets_zero, View.ld_unit_zero (S := S1x128) offsets_zero]
  refine funext fun (j : S2000x128.Idx) => ?_
  obtain ⟨p, q, rfl⟩ : ∃ (p : Fin 2000) (q : Fin 128), j = ix2 p q := ⟨j 0, j 1, eq_ix2 j⟩
  obtain ⟨-, -, -, -, -, -, -, -, -, -, e, e'⟩ := block_index1 t
  have ht : t.val < 25 := t.isLt
  have hr : t.val * 2000 + p.val < 50000 := by omega
  have hemb : ((cfg1.win 5).blk t).view.emb (ix2 p q) = (ix2 (⟨t.val * 2000 + p.val, hr⟩ : Fin 50000) q : S50000x128.Idx) :=
    funext fun a => Fin.ext (by
      match a with
      | ⟨0, _⟩ => show win1_5.index t (0 : Fin 2) * 2000 + 1 * p.val = t.val * 2000 + p.val; rw [e]; omega
      | ⟨1, _⟩ => show win1_5.index t (1 : Fin 2) * 128 + 1 * q.val = q.val; rw [e']; omega)
  refine (pay1_apply _ _ _ _ _ p q).trans ?_
  rw [View.read_apply, hemb]
  show _ = Cert.Sage.denseAt (N := 50000) (K := 256) (M := 128) Cert.Sage.relu
    (V c main_v27) (V c main_v20) (V c main_arg5) (V c main_arg6) (V c main_v28) (⟨t.val * 2000 + p.val, hr⟩ : Fin 50000) q
  unfold Cert.Sage.denseAt
  refine congrArg Cert.Sage.relu ?_
  refine congrArg₂ (· + ·) (congrArg₂ (· + ·) ?_ ?_) ?_
  · exact Finset.sum_congr rfl fun k _ => by rw [agg_block1 V c t p k ⟨t.val * 2000 + p.val, hr⟩ rfl, wl_block1 V c t k q]
  · exact Finset.sum_congr rfl fun k _ => by rw [feat_block1 V c t p k ⟨t.val * 2000 + p.val, hr⟩ rfl, wr_block1 V c t k q]
  · exact bias_block1 V c t q

/-- An index of the output array is in point `t`'s block iff each coordinate is in the block's range on its axis. -/
theorem mem_block1 (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v29).slice (win1_5.rect t)).set ↔ _
  rw [View.set_slice_whole, Rect.mem_set_unit]
  exact Iff.rfl

end Blocks

end Block1

open Block1

/-- The second pallas_call's output array after the region, whatever the buffers hold when the region is entered (`V`):
    the dense half of layer 2 of the five arrays its windows read. Every row `r` is in the block of point `r / 2000`,
    so the 25 blocks cover the array. -/
theorem region1_value (V : (c : Dev nD) → (b : Ref sig .tc) → Buf (Elt Ideal) ((c : Thread nD τ).loc b)) (c : Dev nD) :
    (dat1 (F := Ideal) V c).arrAt 5 cfg1.N
      = Cert.Sage.dense (N := 50000) (K := 256) (M := 128) Cert.Sage.relu
          (V c main_v27) (V c main_v20) (V c main_arg5) (V c main_arg6) (V c main_v28) :=
  (dat1 (F := Ideal) V c).arrAt_eq_of_cover 5 (layer1 V c) (fun t _ => flushed1_eq V c t) fun i => by
    have hi0 : (i 0).val < 50000 := (i 0).isLt
    have hi1 : (i 1).val < 128 := (i 1).isLt
    have hN : grid1.N = 25 := by decide
    refine ⟨⟨(i 0).val / 2000, by rw [show cfg1.N = 25 from hN]; omega⟩, flush1_5 _, ?_⟩
    rw [mem_block1]
    obtain ⟨-, -, -, -, -, -, -, -, -, -, e, e'⟩ := block_index1 ⟨(i 0).val / 2000, by rw [show cfg1.N = 25 from hN]; omega⟩
    intro a
    match a with
    | ⟨0, _⟩ =>
      show win1_5.index _ (0 : Fin 2) * 2000 ≤ (i 0).val ∧ (i 0).val < win1_5.index _ (0 : Fin 2) * 2000 + 2000
      rw [e]; show (i 0).val / 2000 * 2000 ≤ (i 0).val ∧ (i 0).val < (i 0).val / 2000 * 2000 + 2000; omega
    | ⟨1, _⟩ =>
      show win1_5.index _ (1 : Fin 2) * 128 ≤ (i 1).val ∧ (i 1).val < win1_5.index _ (1 : Fin 2) * 128 + 128
      rw [e']; omega

end Cert.KernelIdeal.Sage

end
-- ==== Proof.Sage.Region2.lean ====
import proofs.«423074_j90761248899605_1_alg».proof.Proof.Gen.KernelIdeal.Frame
import proofs.«423074_j90761248899605_1_alg».proof.Proof.Sage.Spec
import proofs.«423074_j90761248899605_1_alg».proof.Proof.Sage.Payload
import Idealize.ShloMosaic.PureOps.Ideal.Laws
import Idealize.ShloMosaic.Lib.Pipeline.Value
import Idealize.ShloMosaic.Lib.ValueIdx

set_option maxRecDepth 16384

noncomputable section

namespace Cert.KernelIdeal.Sage

open Cert.KernelIdeal Cert.KernelIdeal.Gen Idealize.ShloMosaic Idealize.ShloMosaic.TcCoe Idealize.SL.Sem
open Idealize.ShloMosaic.Pipeline (Dat Cfg Window)
open Idealize.ShloMosaic.ValueIdx
open scoped BigOperators

namespace Block2

/-! ## From the blocks to the array

Grid point `t` works on rows `2000 t … 2000 t + 1999` of the node arrays and of the output; the two weight matrices
and the bias row are fetched whole at every point. -/

theorem offsets_zero : (![0, 0] : Fin 2 → Nat) = fun _ => 0 := funext fun a => by fin_cases a <;> rfl

/-- The printed block index maps, decided over the 25 points: the node arrays and the output move down the rows with
    the point; the weights and the bias stay at block `(0, 0)`. -/
theorem block_index2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

section Blocks
variable (V : (c : Dev nD) → (b : Ref sig .tc) → Buf (Elt Ideal) ((c : Thread nD τ).loc b)) (c : Dev nD)

/-- Row `p` of the aggregated features' block at point `t` is row `r = 2000 t + p` of the array. -/
theorem agg_block2 (t : Fin cfg2.N) (p : Fin 2000) (k : Fin 128) (r : Fin 50000) (hr : r.val = t.val * 2000 + p.val) :
    (iblk2 V c 0 t : Vec Ideal S2000x128 .f32) (ix2 p k) = (V c main_v36 : S50000x128.Idx → EReal) (ix2 r k) := by
  obtain ⟨e, e', -⟩ := block_index2 t
  unfold iblk2
  rw [View.read_apply]
  show V c main_v36 _ = V c main_v36 _
  refine congrArg _ (funext fun a => Fin.ext ?_)
  match a with
  | ⟨0, _⟩ => show win2_0.index t (0 : Fin 2) * 2000 + 1 * p.val = r.val; rw [e, hr]; omega
  | ⟨1, _⟩ => show win2_0.index t (1 : Fin 2) * 128 + 1 * k.val = k.val; rw [e']; omega

/-- Row `p` of the node features' block at point `t` is row `r = 2000 t + p` of the array. -/
theorem feat_block2 (t : Fin cfg2.N) (p : Fin 2000) (k : Fin 128) (r : Fin 50000) (hr : r.val = t.val * 2000 + p.val) :
    (iblk2 V c 1 t : Vec Ideal S2000x128 .f32) (ix2 p k) = (V c main_v29 : S50000x128.Idx → EReal) (ix2 r k) := by
  obtain ⟨-, -, e, e', -⟩ := block_index2 t
  unfold iblk2
  rw [View.read_apply]
  show V c main_v29 _ = V c main_v29 _
  refine congrArg _ (funext fun a => Fin.ext ?_)
  match a with
  | ⟨0, _⟩ => show win2_1.index t (0 : Fin 2) * 2000 + 1 * p.val = r.val; rw [e, hr]; omega
  | ⟨1, _⟩ => show win2_1.index t (1 : Fin 2) * 128 + 1 * k.val = k.val; rw [e']; omega

/-- The first weight matrix's block at every point is the matrix. -/
theorem wl_block2 (t : Fin cfg2.N) (k : Fin 128) (q : Fin 64) :
    (iblk2 V c 2 t : Vec Ideal S128x64 .f32) (ix2 k q) = (V c main_arg8 : S128x64.Idx → EReal) (ix2 k q) := by
  obtain ⟨-, -, -, -, e, e', -⟩ := block_index2 t
  unfold iblk2
  rw [View.read_apply]
  show V c main_arg8 _ = V c main_arg8 _
  refine congrArg _ (funext fun a => Fin.ext ?_)
  match a with
  | ⟨0, _⟩ => show win2_2.index t (0 : Fin 2) * 128 + 1 * k.val = k.val; rw [e]; omega
  | ⟨1, _⟩ => show win2_2.index t (1 : Fin 2) * 64 + 1 * q.val = q.val; rw [e']; omega

/-- The second weight matrix's block at every point is the matrix. -/
theorem wr_block2 (t : Fin cfg2.N) (k : Fin 128) (q : Fin 64) :
    (iblk2 V c 3 t : Vec Ideal S128x64 .f32) (ix2 k q) = (V c main_arg9 : S128x64.Idx → EReal) (ix2 k q) := by
  obtain ⟨-, -, -, -, -, -, e, e', -⟩ := block_index2 t
  unfold iblk2
  rw [View.read_apply]
  show V c main_arg9 _ = V c main_arg9 _
  refine congrArg _ (funext fun a => Fin.ext ?_)
  match a with
  | ⟨0, _⟩ => show win2_3.index t (0 : Fin 2) * 128 + 1 * k.val = k.val; rw [e]; omega
  | ⟨1, _⟩ => show win2_3.index t (1 : Fin 2) * 64 + 1 * q.val = q.val; rw [e']; omega

/-- The bias row's block at every point is the row. -/
theorem bias_block2 (t : Fin cfg2.N) (q : Fin 64) :
    (iblk2 V c 4 t : Vec Ideal S1x64 .f32) (ix2 0 q) = (V c main_v37 : S1x64.Idx → EReal) (ix2 0 q) := by
  obtain ⟨-, -, -, -, -, -, -, -, e, e', -⟩ := block_index2 t
  unfold iblk2
  rw [View.read_apply]
  show V c main_v37 _ = V c main_v37 _
  refine congrArg _ (funext fun a => Fin.ext ?_)
  match a with
  | ⟨0, _⟩ => show win2_4.index t (0 : Fin 2) * 1 + 1 * 0 = 0; rw [e]
  | ⟨1, _⟩ => show win2_4.index t (1 : Fin 2) * 64 + 1 * q.val = q.val; rw [e']; omega

/-- The array the region leaves: the dense half of the layer of the five arrays as the region finds them. -/
abbrev layer2 : S50000x64.Idx → EReal :=
  Cert.Sage.dense (N := 50000) (K := 128) (M := 64) Ideal.logistic
    (V c main_v36) (V c main_v29) (V c main_arg8) (V c main_arg9) (V c main_v37)

/-- What point `t` writes back is block `t` of that array. -/
theorem flushed2_eq (t : Fin cfg2.N) :
    (dat2 (F := Ideal) V c).flushed 5 t = ((cfg2.win 5).blk t).view.read (Elt Ideal) (layer2 V c) := by
  show (cfg2.win 5).cut (grid2.coords t) ((dat2 V c).after 5 t) = _
  rw [after2_5]
  unfold out2_5
  rw [View.canon_unit_zero offsets_zero]
  simp only [View.ld_unit_zero (S := S2000x128) offsets_zero, View.ld_unit_zero (S := S128x64) offsets_zero, View.ld_unit_zero (S := S1x64) offsets_zero]
  refine funext fun (j : S2000x64.Idx) => ?_
  obtain ⟨p, q, rfl⟩ : ∃ (p : Fin 2000) (q : Fin 64), j = ix2 p q := ⟨j 0, j 1, eq_ix2 j⟩
  obtain ⟨-, -, -, -, -, -, -, -, -, -, e, e'⟩ := block_index2 t
  have ht : t.val < 25 := t.isLt
  have hr : t.val * 2000 + p.val < 50000 := by omega
  have hemb : ((cfg2.win 5).blk t).view.emb (ix2 p q) = (ix2 (⟨t.val * 2000 + p.val, hr⟩ : Fin 50000) q : S50000x64.Idx) :=
    funext fun a => Fin.ext (by
      match a with
      | ⟨0, _⟩ => show win2_5.index t (0 : Fin 2) * 2000 + 1 * p.val = t.val * 2000 + p.val; rw [e]; omega
      | ⟨1, _⟩ => show win2_5.index t (1 : Fin 2) * 64 + 1 * q.val = q.val; rw [e']; omega)
  refine (pay2_apply _ _ _ _ _ p q).trans ?_
  rw [View.read_apply, hemb]
  show _ = Cert.Sage.denseAt (N := 50000) (K := 128) (M := 64) Ideal.logistic
    (V c main_v36) (V c main_v29) (V c main_arg8) (V c main_arg9) (V c main_v37) (⟨t.val * 2000 + p.val, hr⟩ : Fin 50000) q
  unfold Cert.Sage.denseAt
  refine congrArg Ideal.logistic ?_
  refine congrArg₂ (· + ·) (congrArg₂ (· + ·) ?_ ?_) ?_
  · exact Finset.sum_congr rfl fun k _ => by rw [agg_block2 V c t p k ⟨t.val * 2000 + p.val, hr⟩ rfl, wl_block2 V c t k q]
  · exact Finset.sum_congr rfl fun k _ => by rw [feat_block2 V c t p k ⟨t.val * 2000 + p.val, hr⟩ rfl, wr_block2 V c t k q]
  · exact bias_block2 V c t q

/-- An index of the output array is in point `t`'s block iff each coordinate is in the block's range on its axis. -/
theorem mem_block2 (t : Fin cfg2.N) (i : S50000x64.Idx) :
    i ∈ ((cfg2.win 5).blk t).view.set ↔ ∀ a : Fin 2, win2_5.index t a * S2000x64.size a ≤ (i a).val ∧ (i a).val < win2_5.index t a * S2000x64.size a + S2000x64.size a := by
  show i ∈ ((View.whole main_v38).slice (win2_5.rect t)).set ↔ _
  rw [View.set_slice_whole, Rect.mem_set_unit]
  exact Iff.rfl

end Blocks

end Block2

open Block2

/-- The third pallas_call's output array after the region, whatever the buffers hold when the region is entered (`V`):
    the dense half of layer 3, through the logistic function, of the five arrays its windows read. Every row `r` is in
    the block of point `r / 2000`, so the 25 blocks cover the array. -/
theorem region2_value (V : (c : Dev nD) → (b : Ref sig .tc) → Buf (Elt Ideal) ((c : Thread nD τ).loc b)) (c : Dev nD) :
    (dat2 (F := Ideal) V c).arrAt 5 cfg2.N
      = Cert.Sage.dense (N := 50000) (K := 128) (M := 64) Ideal.logistic
          (V c main_v36) (V c main_v29) (V c main_arg8) (V c main_arg9) (V c main_v37) :=
  (dat2 (F := Ideal) V c).arrAt_eq_of_cover 5 (layer2 V c) (fun t _ => flushed2_eq V c t) fun i => by
    have hi0 : (i 0).val < 50000 := (i 0).isLt
    have hi1 : (i 1).val < 64 := (i 1).isLt
    have hN : grid2.N = 25 := by decide
    refine ⟨⟨(i 0).val / 2000, by rw [show cfg2.N = 25 from hN]; omega⟩, flush2_5 _, ?_⟩
    rw [mem_block2]
    obtain ⟨-, -, -, -, -, -, -, -, -, -, e, e'⟩ := block_index2 ⟨(i 0).val / 2000, by rw [show cfg2.N = 25 from hN]; omega⟩
    intro a
    match a with
    | ⟨0, _⟩ =>
      show win2_5.index _ (0 : Fin 2) * 2000 ≤ (i 0).val ∧ (i 0).val < win2_5.index _ (0 : Fin 2) * 2000 + 2000
      rw [e]; show (i 0).val / 2000 * 2000 ≤ (i 0).val ∧ (i 0).val < (i 0).val / 2000 * 2000 + 2000; omega
    | ⟨1, _⟩ =>
      show win2_5.index _ (1 : Fin 2) * 64 ≤ (i 1).val ∧ (i 1).val < win2_5.index _ (1 : Fin 2) * 64 + 64
      rw [e']; omega

end Cert.KernelIdeal.Sage

end
-- ==== Proof.Sage.KValue.lean ====
/-
  What the kernel's program leaves in its result array, as one function of the launch arguments.

  The program is three rounds of: host operations (gather the source rows with the in-bounds mask, sum them per
  destination node, scale by the reciprocal in-degree, lay the bias out as a row), then a pallas_call computing the
  dense half of the layer block by block. Reading the buffer contents boundary by boundary — after each stretch of host
  operations and after each region — every intermediate array is named in closed form: the first region's output is
  `layer1` of the arguments, the second's `layer2` of that, the third's (the result) `layer3` of that. A region's
  output array is the dense half of the arrays its windows read (the region theorems); a stretch of host operations
  leaves each of its results at its operation applied to the operands' contents and every other buffer as it was.
-/
import proofs.«423074_j90761248899605_1_alg».proof.Proof.Gen.KernelIdeal.Frame
import proofs.«423074_j90761248899605_1_alg».proof.Proof.Sage.KTerms
import proofs.«423074_j90761248899605_1_alg».proof.Proof.Sage.Region0
import proofs.«423074_j90761248899605_1_alg».proof.Proof.Sage.Region1
import proofs.«423074_j90761248899605_1_alg».proof.Proof.Sage.Region2
import Idealize.ShloMosaic.Lib.StableHlo.Run
import Idealize.ShloMosaic.PureOps.Ideal

set_option maxRecDepth 16384

noncomputable section

namespace Cert.KernelIdeal.Sage

open Cert.KernelIdeal Cert.KernelIdeal.Gen Cert.KernelIdeal.Facts₀ Cert.KernelIdeal.Facts
open Idealize.ShloMosaic Idealize.ShloMosaic.TcCoe Idealize.SL.Sem Idealize.ShloMosaic.StableHlo

/-- Contents carried to a buffer's own type and back are unchanged. -/
theorem ofBuf_toBuf {Val : EltTy → Type} {T : BufTy} (x : TRef sig T) (v : T.Contents Val) : x.ofBuf (x.toBuf v) = v := by
  obtain ⟨r, h1, _, _⟩ := x
  subst h1; rfl

/-- The gathered messages' buffers hold their contents as they are (their type is the value's). -/
theorem at_v12 (v : (⟨S800000x128, .f32⟩ : BufTy).Contents (Elt Ideal)) :
    (TRef.of (sig := sig) (T := ⟨S800000x128, .f32⟩) main_v12).toBuf v = v := rfl
theorem at_v21 (v : (⟨S800000x256, .f32⟩ : BufTy).Contents (Elt Ideal)) :
    (TRef.of (sig := sig) (T := ⟨S800000x256, .f32⟩) main_v21).toBuf v = v := rfl
theorem at_v30 (v : (⟨S800000x128, .f32⟩ : BufTy).Contents (Elt Ideal)) :
    (TRef.of (sig := sig) (T := ⟨S800000x128, .f32⟩) main_v30).toBuf v = v := rfl

variable (m : (ℓ : Loc nD τ sig) → Buf (Elt Ideal) ℓ) (ρ : Dev nD → PrngReg)

/-- The buffer contents after the first, the fourth and the seventh stretch of host operations (the three gathers), read at
    the TensorCore's references. -/
abbrev V2 : (c : Dev nD) → (b : Ref sig .tc) → Buf (Elt Ideal) ((c : Thread nD τ).loc b) := fun c b => W2 m ρ c b
abbrev V5 : (c : Dev nD) → (b : Ref sig .tc) → Buf (Elt Ideal) ((c : Thread nD τ).loc b) := fun c b => W5 m ρ c b
abbrev V8 : (c : Dev nD) → (b : Ref sig .tc) → Buf (Elt Ideal) ((c : Thread nD τ).loc b) := fun c b => W8 m ρ c b

/-! ## The first layer -/

theorem dst2 (c : Dev nD) : V2 m ρ c main_v3 = dstOf (m ((c : Thread nD τ).loc main_arg1)) := by
  dsimp only [V2, W2]; after_results_simp <;> rfl
theorem inv2 (c : Dev nD) : V2 m ρ c main_v11 = invDeg (dstOf (m ((c : Thread nD τ).loc main_arg1))) := by
  dsimp only [V2, W2]; after_results_simp <;> rfl

theorem msg2 (c : Dev nD) : V2 m ρ c main_v12 = take128 (m ((c : Thread nD τ).loc main_arg0)) (srcOf (m ((c : Thread nD τ).loc main_arg1))) := by
  dsimp only [V2, W2]; after_results_simp
  simp only [ofBuf_toBuf]
  refine (at_v12 _).trans ?_
  unfold take128
  congr 1

theorem agg3 (c : Dev nD) : V3 m ρ c main_v18
    = agg128 (take128 (m ((c : Thread nD τ).loc main_arg0)) (srcOf (m ((c : Thread nD τ).loc main_arg1)))) (dstOf (m ((c : Thread nD τ).loc main_arg1))) (invDeg (dstOf (m ((c : Thread nD τ).loc main_arg1)))) := by
  dsimp only [V3, W3]
  generalize hW : W2 m ρ c = W
  after_results_simp
  subst hW
  have e1 := msg2 m ρ c; have e2 := dst2 m ρ c; have e3 := inv2 m ρ c
  dsimp only [V2] at e1 e2 e3
  rw [e1, e2, e3]
  rfl

theorem bias3 (c : Dev nD) : V3 m ρ c main_v19 = shapeCast _ (m ((c : Thread nD τ).loc main_arg4)) Facts₀.shapeCasts_S256_S1x256 := by
  dsimp only [V3, W3]; after_results_simp <;> rfl
theorem x3 (c : Dev nD) : V3 m ρ c main_arg0 = m ((c : Thread nD τ).loc main_arg0) := by
  dsimp only [V3, W3]; after_results_simp <;> rfl
theorem wl3 (c : Dev nD) : V3 m ρ c main_arg2 = m ((c : Thread nD τ).loc main_arg2) := by
  dsimp only [V3, W3]; after_results_simp <;> rfl
theorem wr3 (c : Dev nD) : V3 m ρ c main_arg3 = m ((c : Thread nD τ).loc main_arg3) := by
  dsimp only [V3, W3]; after_results_simp <;> rfl

/-- The first region's output array is the first layer of the arguments. -/
theorem hid4 (c : Dev nD) : V4 m ρ c main_v20 = layer1 (m ((c : Thread nD τ).loc main_arg0)) (m ((c : Thread nD τ).loc main_arg1)) (m ((c : Thread nD τ).loc main_arg2)) (m ((c : Thread nD τ).loc main_arg3)) (m ((c : Thread nD τ).loc main_arg4)) := by
  refine ((W4_arr m ρ c 5).trans (region0_value (V3 m ρ) c)).trans ?_
  rw [agg3 m ρ c, x3 m ρ c, wl3 m ρ c, wr3 m ρ c, bias3 m ρ c]
  rfl

/-! ## Across the first region: what the later rounds still read -/

theorem src3 (c : Dev nD) : V3 m ρ c main_v1 = srcOf (m ((c : Thread nD τ).loc main_arg1)) := by
  dsimp only [V3, W3]; after_results_simp <;> rfl
theorem dst3 (c : Dev nD) : V3 m ρ c main_v3 = dstOf (m ((c : Thread nD τ).loc main_arg1)) := by
  dsimp only [V3, W3]; after_results_simp <;> rfl
theorem inv3 (c : Dev nD) : V3 m ρ c main_v11 = invDeg (dstOf (m ((c : Thread nD τ).loc main_arg1))) := by
  dsimp only [V3, W3]; after_results_simp <;> rfl
theorem a5_3 (c : Dev nD) : V3 m ρ c main_arg5 = m ((c : Thread nD τ).loc main_arg5) := by
  dsimp only [V3, W3]; after_results_simp <;> rfl
theorem a6_3 (c : Dev nD) : V3 m ρ c main_arg6 = m ((c : Thread nD τ).loc main_arg6) := by
  dsimp only [V3, W3]; after_results_simp <;> rfl
theorem a7_3 (c : Dev nD) : V3 m ρ c main_arg7 = m ((c : Thread nD τ).loc main_arg7) := by
  dsimp only [V3, W3]; after_results_simp <;> rfl
theorem a8_3 (c : Dev nD) : V3 m ρ c main_arg8 = m ((c : Thread nD τ).loc main_arg8) := by
  dsimp only [V3, W3]; after_results_simp <;> rfl
theorem a9_3 (c : Dev nD) : V3 m ρ c main_arg9 = m ((c : Thread nD τ).loc main_arg9) := by
  dsimp only [V3, W3]; after_results_simp <;> rfl
theorem a10_3 (c : Dev nD) : V3 m ρ c main_arg10 = m ((c : Thread nD τ).loc main_arg10) := by
  dsimp only [V3, W3]; after_results_simp <;> rfl
theorem src4 (c : Dev nD) : V4 m ρ c main_v1 = srcOf (m ((c : Thread nD τ).loc main_arg1)) := (W4_of_ne m ρ c main_v1 (by decide)).trans (src3 m ρ c)
theorem dst4 (c : Dev nD) : V4 m ρ c main_v3 = dstOf (m ((c : Thread nD τ).loc main_arg1)) := (W4_of_ne m ρ c main_v3 (by decide)).trans (dst3 m ρ c)
theorem inv4 (c : Dev nD) : V4 m ρ c main_v11 = invDeg (dstOf (m ((c : Thread nD τ).loc main_arg1))) := (W4_of_ne m ρ c main_v11 (by decide)).trans (inv3 m ρ c)
theorem a5_4 (c : Dev nD) : V4 m ρ c main_arg5 = m ((c : Thread nD τ).loc main_arg5) :=
  (W4_of_ne m ρ c main_arg5 (by decide)).trans (a5_3 m ρ c)
theorem a6_4 (c : Dev nD) : V4 m ρ c main_arg6 = m ((c : Thread nD τ).loc main_arg6) :=
  (W4_of_ne m ρ c main_arg6 (by decide)).trans (a6_3 m ρ c)
theorem a7_4 (c : Dev nD) : V4 m ρ c main_arg7 = m ((c : Thread nD τ).loc main_arg7) :=
  (W4_of_ne m ρ c main_arg7 (by decide)).trans (a7_3 m ρ c)
theorem a8_4 (c : Dev nD) : V4 m ρ c main_arg8 = m ((c : Thread nD τ).loc main_arg8) :=
  (W4_of_ne m ρ c main_arg8 (by decide)).trans (a8_3 m ρ c)
theorem a9_4 (c : Dev nD) : V4 m ρ c main_arg9 = m ((c : Thread nD τ).loc main_arg9) :=
  (W4_of_ne m ρ c main_arg9 (by decide)).trans (a9_3 m ρ c)
theorem a10_4 (c : Dev nD) : V4 m ρ c main_arg10 = m ((c : Thread nD τ).loc main_arg10) :=
  (W4_of_ne m ρ c main_arg10 (by decide)).trans (a10_3 m ρ c)

/-! ## The second layer -/

theorem dst5 (c : Dev nD) : V5 m ρ c main_v3 = dstOf (m ((c : Thread nD τ).loc main_arg1)) := by
  dsimp only [V5, W5]; after_results_simp
  exact dst4 m ρ c
theorem inv5 (c : Dev nD) : V5 m ρ c main_v11 = invDeg (dstOf (m ((c : Thread nD τ).loc main_arg1))) := by
  dsimp only [V5, W5]; after_results_simp
  exact inv4 m ρ c

theorem msg5 (c : Dev nD) : V5 m ρ c main_v21 = take256 (layer1 (m ((c : Thread nD τ).loc main_arg0)) (m ((c : Thread nD τ).loc main_arg1)) (m ((c : Thread nD τ).loc main_arg2)) (m ((c : Thread nD τ).loc main_arg3)) (m ((c : Thread nD τ).loc main_arg4))) (srcOf (m ((c : Thread nD τ).loc main_arg1))) := by
  dsimp only [V5, W5]
  generalize hW : W4 m ρ c = W
  after_results_simp
  simp only [ofBuf_toBuf]
  subst hW
  refine (at_v21 _).trans ?_
  have e1 := hid4 m ρ c; have e2 := src4 m ρ c
  dsimp only [V4] at e1 e2
  rw [e1, e2]
  unfold take256
  congr 1

theorem agg6 (c : Dev nD) : V6 m ρ c main_v27
    = agg256 (take256 (layer1 (m ((c : Thread nD τ).loc main_arg0)) (m ((c : Thread nD τ).loc main_arg1)) (m ((c : Thread nD τ).loc main_arg2)) (m ((c : Thread nD τ).loc main_arg3)) (m ((c : Thread nD τ).loc main_arg4))) (srcOf (m ((c : Thread nD τ).loc main_arg1)))) (dstOf (m ((c : Thread nD τ).loc main_arg1))) (invDeg (dstOf (m ((c : Thread nD τ).loc main_arg1)))) := by
  dsimp only [V6, W6]
  generalize hW : W5 m ρ c = W
  after_results_simp
  subst hW
  have e1 := msg5 m ρ c; have e2 := dst5 m ρ c; have e3 := inv5 m ρ c
  dsimp only [V5] at e1 e2 e3
  rw [e1, e2, e3]
  rfl

theorem bias6 (c : Dev nD) : V6 m ρ c main_v28 = shapeCast _ (m ((c : Thread nD τ).loc main_arg7)) Facts₀.shapeCasts_S128_S1x128 := by
  dsimp only [V6, W6]; after_results_simp
  have e := a7_4 m ρ c
  dsimp only [V4] at e
  rw [e]
  rfl
theorem g6 (c : Dev nD) : V6 m ρ c main_v20 = layer1 (m ((c : Thread nD τ).loc main_arg0)) (m ((c : Thread nD τ).loc main_arg1)) (m ((c : Thread nD τ).loc main_arg2)) (m ((c : Thread nD τ).loc main_arg3)) (m ((c : Thread nD τ).loc main_arg4)) := by
  dsimp only [V6, W6]; after_results_simp
  exact hid4 m ρ c
theorem wl6 (c : Dev nD) : V6 m ρ c main_arg5 = m ((c : Thread nD τ).loc main_arg5) := by
  dsimp only [V6, W6]; after_results_simp
  exact a5_4 m ρ c
theorem wr6 (c : Dev nD) : V6 m ρ c main_arg6 = m ((c : Thread nD τ).loc main_arg6) := by
  dsimp only [V6, W6]; after_results_simp
  exact a6_4 m ρ c

/-- The second region's output array is the second layer of the first. -/
theorem hid7 (c : Dev nD) : V7 m ρ c main_v29 = layer2 (layer1 (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) (m ((c : Thread nD τ).loc main_arg5)) (m ((c : Thread nD τ).loc main_arg6)) (m ((c : Thread nD τ).loc main_arg7)) := by
  refine ((W7_arr m ρ c 5).trans (region1_value (V6 m ρ) c)).trans ?_
  rw [agg6 m ρ c, g6 m ρ c, wl6 m ρ c, wr6 m ρ c, bias6 m ρ c]
  rfl

/-! ## Across the second region -/

theorem src6 (c : Dev nD) : V6 m ρ c main_v1 = srcOf (m ((c : Thread nD τ).loc main_arg1)) := by
  dsimp only [V6, W6]; after_results_simp
  exact src4 m ρ c
theorem dst6 (c : Dev nD) : V6 m ρ c main_v3 = dstOf (m ((c : Thread nD τ).loc main_arg1)) := by
  dsimp only [V6, W6]; after_results_simp
  exact dst4 m ρ c
theorem inv6 (c : Dev nD) : V6 m ρ c main_v11 = invDeg (dstOf (m ((c : Thread nD τ).loc main_arg1))) := by
  dsimp only [V6, W6]; after_results_simp
  exact inv4 m ρ c
theorem a8_6 (c : Dev nD) : V6 m ρ c main_arg8 = m ((c : Thread nD τ).loc main_arg8) := by
  dsimp only [V6, W6]; after_results_simp
  exact a8_4 m ρ c
theorem a9_6 (c : Dev nD) : V6 m ρ c main_arg9 = m ((c : Thread nD τ).loc main_arg9) := by
  dsimp only [V6, W6]; after_results_simp
  exact a9_4 m ρ c
theorem a10_6 (c : Dev nD) : V6 m ρ c main_arg10 = m ((c : Thread nD τ).loc main_arg10) := by
  dsimp only [V6, W6]; after_results_simp
  exact a10_4 m ρ c
theorem src7 (c : Dev nD) : V7 m ρ c main_v1 = srcOf (m ((c : Thread nD τ).loc main_arg1)) := (W7_of_ne m ρ c main_v1 (by decide)).trans (src6 m ρ c)
theorem dst7 (c : Dev nD) : V7 m ρ c main_v3 = dstOf (m ((c : Thread nD τ).loc main_arg1)) := (W7_of_ne m ρ c main_v3 (by decide)).trans (dst6 m ρ c)
theorem inv7 (c : Dev nD) : V7 m ρ c main_v11 = invDeg (dstOf (m ((c : Thread nD τ).loc main_arg1))) := (W7_of_ne m ρ c main_v11 (by decide)).trans (inv6 m ρ c)
theorem a8_7 (c : Dev nD) : V7 m ρ c main_arg8 = m ((c : Thread nD τ).loc main_arg8) :=
  (W7_of_ne m ρ c main_arg8 (by decide)).trans (a8_6 m ρ c)
theorem a9_7 (c : Dev nD) : V7 m ρ c main_arg9 = m ((c : Thread nD τ).loc main_arg9) :=
  (W7_of_ne m ρ c main_arg9 (by decide)).trans (a9_6 m ρ c)
theorem a10_7 (c : Dev nD) : V7 m ρ c main_arg10 = m ((c : Thread nD τ).loc main_arg10) :=
  (W7_of_ne m ρ c main_arg10 (by decide)).trans (a10_6 m ρ c)

/-! ## The third layer -/

theorem dst8 (c : Dev nD) : V8 m ρ c main_v3 = dstOf (m ((c : Thread nD τ).loc main_arg1)) := by
  dsimp only [V8, W8]; after_results_simp
  exact dst7 m ρ c
theorem inv8 (c : Dev nD) : V8 m ρ c main_v11 = invDeg (dstOf (m ((c : Thread nD τ).loc main_arg1))) := by
  dsimp only [V8, W8]; after_results_simp
  exact inv7 m ρ c

theorem msg8 (c : Dev nD) : V8 m ρ c main_v30 = take128 (layer2 (layer1 (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) (m ((c : Thread nD τ).loc main_arg5)) (m ((c : Thread nD τ).loc main_arg6)) (m ((c : Thread nD τ).loc main_arg7))) (srcOf (m ((c : Thread nD τ).loc main_arg1))) := by
  dsimp only [V8, W8]
  generalize hW : W7 m ρ c = W
  after_results_simp
  simp only [ofBuf_toBuf]
  subst hW
  refine (at_v30 _).trans ?_
  have e1 := hid7 m ρ c; have e2 := src7 m ρ c
  dsimp only [V7] at e1 e2
  rw [e1, e2]
  unfold take128
  congr 1

theorem agg9 (c : Dev nD) : V9 m ρ c main_v36
    = agg128 (take128 (layer2 (layer1 (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) (m ((c : Thread nD τ).loc main_arg5)) (m ((c : Thread nD τ).loc main_arg6)) (m ((c : Thread nD τ).loc main_arg7))) (srcOf (m ((c : Thread nD τ).loc main_arg1)))) (dstOf (m ((c : Thread nD τ).loc main_arg1))) (invDeg (dstOf (m ((c : Thread nD τ).loc main_arg1)))) := by
  dsimp only [V9, W9]
  generalize hW : W8 m ρ c = W
  after_results_simp
  subst hW
  have e1 := msg8 m ρ c; have e2 := dst8 m ρ c; have e3 := inv8 m ρ c
  dsimp only [V8] at e1 e2 e3
  rw [e1, e2, e3]
  rfl

theorem bias9 (c : Dev nD) : V9 m ρ c main_v37 = shapeCast _ (m ((c : Thread nD τ).loc main_arg10)) Facts₀.shapeCasts_S64_S1x64 := by
  dsimp only [V9, W9]; after_results_simp
  have e := a10_7 m ρ c
  dsimp only [V7] at e
  rw [e]
  rfl
theorem g9 (c : Dev nD) : V9 m ρ c main_v29 = layer2 (layer1 (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) (m ((c : Thread nD τ).loc main_arg5)) (m ((c : Thread nD τ).loc main_arg6)) (m ((c : Thread nD τ).loc main_arg7)) := by
  dsimp only [V9, W9]; after_results_simp
  exact hid7 m ρ c
theorem wl9 (c : Dev nD) : V9 m ρ c main_arg8 = m ((c : Thread nD τ).loc main_arg8) := by
  dsimp only [V9, W9]; after_results_simp
  exact a8_7 m ρ c
theorem wr9 (c : Dev nD) : V9 m ρ c main_arg9 = m ((c : Thread nD τ).loc main_arg9) := by
  dsimp only [V9, W9]; after_results_simp
  exact a9_7 m ρ c

/-- The third region's output array — the program's result — is the third layer of the second. -/
theorem out10 (c : Dev nD) : W10 m ρ c (Proc.devRef .tc main_v38) = layer3 (layer2 (layer1 (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) (m ((c : Thread nD τ).loc main_arg5)) (m ((c : Thread nD τ).loc main_arg6)) (m ((c : Thread nD τ).loc main_arg7))) (m ((c : Thread nD τ).loc main_arg1)) (m ((c : Thread nD τ).loc main_arg8)) (m ((c : Thread nD τ).loc main_arg9)) (m ((c : Thread nD τ).loc main_arg10)) := by
  refine ((W10_arr m ρ c 5).trans (region2_value (V9 m ρ) c)).trans ?_
  rw [agg9 m ρ c, g9 m ρ c, wl9 m ρ c, wr9 m ρ c, bias9 m ρ c]
  rfl

end Cert.KernelIdeal.Sage

end
-- ==== Proof.Sage.RTerms.lean ====
/-
  The reference program's pieces, named as whole-array functions at the extended reals: the edge list's two rows, the
  row gather (a negative id counts from the end), the mean aggregation (messages summed per destination node, divided
  by `max deg 1`), the linear map `agg · Wl + h · Wr + b` of each layer, the rectifier and the sigmoid
  `1 / (1 + exp (-v))`; and the whole network `out` as their composition, which is the term the reference's run ends at.
-/
import proofs.«423074_j90761248899605_1_alg».proof.Proof.Gen.ReferenceIdeal.Run
import Idealize.ShloMosaic.PureOps.Ideal

noncomputable section

namespace Cert.ReferenceIdeal.Sage

open Cert.ReferenceIdeal Cert.ReferenceIdeal.Facts₀ Cert.ReferenceIdeal.Facts Idealize.ShloMosaic Idealize.SL.Sem

/-- Row 0 of the edge list: the source node of every edge. -/
def srcOf (e : IVec S2x800000 32) : IVec S800000 32 :=
  shapeCast _ (extractStridedSlice S1x800000 ![0, 0] e slices_S2x800000_S1x800000_0_0) shapeCasts_S1x800000_S800000

/-- Row 1 of the edge list: the destination node of every edge. -/
def dstOf (e : IVec S2x800000 32) : IVec S800000 32 :=
  shapeCast _ (extractStridedSlice S1x800000 ![1, 0] e slices_S2x800000_S1x800000_1_0) shapeCasts_S1x800000_S800000

/-- The gather's start indices: a negative id counts from the end (`id + 50000`), as a column. -/
def wrapIdx (src : IVec S800000 32) : IVec S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- `max deg 1` per node, `deg` the number of edges into the node (a sum of ones). -/
def maxDeg (dst : IVec S800000 32) : FVec Ideal S50000 .f32 :=
  maximumf
    (Host.scatterAdd scatter_S50000_S800000x1_S800000_n_0_0_1
      (broadcastInDim S50000 ![] bcast_S_S50000 (constant S_ .f32 0x00000000#32))
      (broadcastInDim S800000x1 ![0] bcast_S800000_S800000x1_0 dst)
      (broadcastInDim S800000 ![] bcast_S_S800000 (constant S_ .f32 0x3F800000#32)))
    (broadcastInDim S50000 ![] bcast_S_S50000 (constant S_ .f32 0x3F800000#32))

/-- Mean aggregation over 128 features: the source rows summed per destination node, divided by `max deg 1`. -/
def mean128 (x : FVec Ideal S50000x128 .f32) (e : IVec S2x800000 32) : FVec Ideal S50000x128 .f32 :=
  Host.divf
    (Host.scatterAdd scatter_S50000x128_S800000x1_S800000x128_1_0_0_1
      (broadcastInDim S50000x128 ![] bcast_S_S50000x128 (constant S_ .f32 0x00000000#32))
      (broadcastInDim S800000x1 ![0] bcast_S800000_S800000x1_0 (dstOf e))
      (Host.gather gather_S50000x128_S800000x1_S800000x128_1_0_n_n_0_1_1128 x (wrapIdx (srcOf e))))
    (broadcastInDim S50000x128 ![0, 1] bcast_S50000x1_S50000x128_0_1
      (broadcastInDim S50000x1 ![0] bcast_S50000_S50000x1_0 (maxDeg (dstOf e))))

/-- Mean aggregation over 256 features. -/
def mean256 (x : FVec Ideal S50000x256 .f32) (e : IVec S2x800000 32) : FVec Ideal S50000x256 .f32 :=
  Host.divf
    (Host.scatterAdd scatter_S50000x256_S800000x1_S800000x256_1_0_0_1
      (broadcastInDim S50000x256 ![] bcast_S_S50000x256 (constant S_ .f32 0x00000000#32))
      (broadcastInDim S800000x1 ![0] bcast_S800000_S800000x1_0 (dstOf e))
      (Host.gather gather_S50000x256_S800000x1_S800000x256_1_0_n_n_0_1_1256 x (wrapIdx (srcOf e))))
    (broadcastInDim S50000x256 ![0, 1] bcast_S50000x1_S50000x256_0_1
      (broadcastInDim S50000x1 ![0] bcast_S50000_S50000x1_0 (maxDeg (dstOf e))))

/-- Layer 1's linear map, 128 → 256 features. -/
def lin0 (agg h : FVec Ideal S50000x128 .f32) (Wl Wr : FVec Ideal S128x256 .f32) (b : FVec Ideal S256 .f32) : FVec Ideal S50000x256 .f32 :=
  addf (addf (Host.dotGeneral dot_S50000x128_S128x256_S50000x256_1_0_0_1_n_n none agg Wl)
      (Host.dotGeneral dot_S50000x128_S128x256_S50000x256_1_0_0_1_n_n none h Wr))
    (broadcastInDim S50000x256 ![0, 1] bcast_S1x256_S50000x256_0_1 (broadcastInDim S1x256 ![1] bcast_S256_S1x256_1 b))

/-- Layer 2's linear map, 256 → 128 features. -/
def lin1 (agg h : FVec Ideal S50000x256 .f32) (Wl Wr : FVec Ideal S256x128 .f32) (b : FVec Ideal S128 .f32) : FVec Ideal S50000x128 .f32 :=
  addf (addf (Host.dotGeneral dot_S50000x256_S256x128_S50000x128_1_0_0_1_n_n none agg Wl)
      (Host.dotGeneral dot_S50000x256_S256x128_S50000x128_1_0_0_1_n_n none h Wr))
    (broadcastInDim S50000x128 ![0, 1] bcast_S1x128_S50000x128_0_1 (broadcastInDim S1x128 ![1] bcast_S128_S1x128_1 b))

/-- Layer 3's linear map, 128 → 64 features. -/
def lin2 (agg h : FVec Ideal S50000x128 .f32) (Wl Wr : FVec Ideal S128x64 .f32) (b : FVec Ideal S64 .f32) : FVec Ideal S50000x64 .f32 :=
  addf (addf (Host.dotGeneral dot_S50000x128_S128x64_S50000x64_1_0_0_1_n_n none agg Wl)
      (Host.dotGeneral dot_S50000x128_S128x64_S50000x64_1_0_0_1_n_n none h Wr))
    (broadcastInDim S50000x64 ![0, 1] bcast_S1x64_S50000x64_0_1 (broadcastInDim S1x64 ![1] bcast_S64_S1x64_1 b))

/-- The rectifier on 256 features. -/
def relu256 (v : FVec Ideal S50000x256 .f32) : FVec Ideal S50000x256 .f32 :=
  maximumf v (broadcastInDim S50000x256 ![] bcast_S_S50000x256 (constant S_ .f32 0x00000000#32))

/-- The rectifier on 128 features. -/
def relu128 (v : FVec Ideal S50000x128 .f32) : FVec Ideal S50000x128 .f32 :=
  maximumf v (broadcastInDim S50000x128 ![] bcast_S_S50000x128 (constant S_ .f32 0x00000000#32))

/-- The sigmoid `1 / (1 + exp (-v))` on 64 features. -/
def sigm64 (v : FVec Ideal S50000x64 .f32) : FVec Ideal S50000x64 .f32 :=
  Host.divf (broadcastInDim S50000x64 ![] bcast_S_S50000x64 (constant S_ .f32 0x3F800000#32))
    (addf (broadcastInDim S50000x64 ![] bcast_S_S50000x64 (constant S_ .f32 0x3F800000#32)) (Host.exp (Host.negf v)))

/-- The first hidden layer. -/
def hid1 (x : FVec Ideal S50000x128 .f32) (e : IVec S2x800000 32) (Wl1 Wr1 : FVec Ideal S128x256 .f32) (b1 : FVec Ideal S256 .f32) : FVec Ideal S50000x256 .f32 :=
  relu256 (lin0 (mean128 x e) x Wl1 Wr1 b1)

/-- The second hidden layer, from the first. -/
def hid2 (g : FVec Ideal S50000x256 .f32) (e : IVec S2x800000 32) (Wl2 Wr2 : FVec Ideal S256x128 .f32) (b2 : FVec Ideal S128 .f32) : FVec Ideal S50000x128 .f32 :=
  relu128 (lin1 (mean256 g e) g Wl2 Wr2 b2)

/-- The output layer, from the second hidden layer. -/
def outOf (g : FVec Ideal S50000x128 .f32) (e : IVec S2x800000 32) (Wl3 Wr3 : FVec Ideal S128x64 .f32) (b3 : FVec Ideal S64 .f32) : FVec Ideal S50000x64 .f32 :=
  sigm64 (lin2 (mean128 g e) g Wl3 Wr3 b3)

set_option maxRecDepth 8192 in
/-- The reference's run ends with its result at the three layers composed. -/
theorem res_eq (m : (ℓ : Loc nD τ sig) → Buf (Elt Ideal) ℓ) (c : Dev nD) :
    Value.res_main_v86 (F := Ideal) m c
      = outOf (hid2 (hid1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
          (m ((c.tc : Thread nD τ).loc main_arg1)) (m ((c.tc : Thread nD τ).loc main_arg5)) (m ((c.tc : Thread nD τ).loc main_arg6)) (m ((c.tc : Thread nD τ).loc main_arg7)))
        (m ((c.tc : Thread nD τ).loc main_arg1)) (m ((c.tc : Thread nD τ).loc main_arg8)) (m ((c.tc : Thread nD τ).loc main_arg9)) (m ((c.tc : Thread nD τ).loc main_arg10)) := by
  unfold Value.res_main_v86 outOf hid2 hid1 sigm64 relu128 relu256 lin2 lin1 lin0 mean128 mean256 maxDeg wrapIdx srcOf dstOf
  rfl

end Cert.ReferenceIdeal.Sage

end
-- ==== Proof.Sage.Take.lean ====
import proofs.«423074_j90761248899605_1_alg».proof.Proof.Sage.KTerms
import Idealize.ShloMosaic.Lib.ValueIdx
import Idealize.ShloMosaic.Lib.StableHlo.Predicate

set_option maxRecDepth 16384

noncomputable section

namespace Cert.KernelIdeal.Sage

open Cert.KernelIdeal Cert.KernelIdeal.Facts₀ Cert.KernelIdeal.Facts Idealize.ShloMosaic Idealize.ShloMosaic.ValueIdx

/-- Every edge's source id is a node: as an unsigned word it is below 50000 (so it is also non-negative as a signed one). -/
def SrcInRange (e : IVec S2x800000 32) : Prop :=
  ∀ k : Fin 800000, (srcOf e (ix1 k)).toNat < 50000

/-- A fold by `and` of one-bit words that are all 1, started at 1, is 1. -/
theorem fold_andi_ones {ι : Type} (S : Finset ι) (f : ι → BitVec 1) (hf : ∀ i ∈ S, f i = 1#1) :
    S.fold IntOp.andi 1#1 f = 1#1 := by
  induction S using Finset.cons_induction with
  | empty => rfl
  | cons a S ha ih =>
    rw [Finset.fold_cons, hf a (Finset.mem_cons_self a S), ih (fun i hi => hf i (Finset.mem_cons.2 (Or.inr hi)))]
    rfl

/-- A reduction by `and`, from 1, of an array of ones is 1 at every result index. -/
theorem reduce_andi_ones {s t u : Shape} {axes : List (Fin s.rank)} (x : s.Idx → BitVec 1) (init : u.Idx → BitVec 1)
    (h : s.ReducesTo axes t) (hu : 0 < u.numel) (hinit : ∀ i, init i = 1#1) (hx : ∀ i, x i = 1#1) (j : t.Idx) :
    Host.reduce IntOp.andi x init h hu j = 1#1 := by
  classical
  rw [Host.reduce_eq_fold, hinit]
  exact fold_andi_ones _ _ (fun i _ => hx i)

open StableHlo.Predicate in
/-- The start index of edge `p` is its source id: a word below 50000 is not negative, so nothing is added to it. -/
theorem wrapIdx_apply (e : IVec S2x800000 32) (h : SrcInRange e) (p : Fin 800000) :
    wrapIdx (srcOf e) (ixP p) = srcOf e (ix1 p) := by
  unfold wrapIdx
  rw [bcast_col1]
  have hp : (Shape.Idx.ofFin p : S800000.Idx) = ix1 p := by
    funext a; match a with | ⟨0, _⟩ => rfl
  rw [hp, select_apply]
  have hk := h p
  have hc : cmpi .slt (srcOf e) (broadcastInDim S800000 ![] bcast_S_S800000 (constantI S_ 32 0#32)) (ix1 p) = 0#1 := by
    apply eq_zero_of_ne_one
    show ¬ IntOp.cmpi .slt (srcOf e (ix1 p)) 0#32 = 1#1
    rw [slt_iff_toNat (by omega) (by decide)]
    simp
  rw [hc, select_zero]

open StableHlo.Predicate in
/-- Every entry of the range test is 1. -/
theorem inRange_apply (e : IVec S2x800000 32) (h : SrcInRange e) (i : S800000x1.Idx) :
    andi (cmpi .sge (wrapIdx (srcOf e)) (broadcastInDim S800000x1 ![] bcast_S_S800000x1 (constantI S_ 32 0#32)))
      (cmpi .sle (wrapIdx (srcOf e)) (broadcastInDim S800000x1 ![0, 1] bcast_S1x1_S800000x1_0_1
        (broadcastInDim S1x1 ![1] bcast_S1_S1x1_1 (constantI S1 32 49999#32)))) i = 1#1 := by
  obtain ⟨p, rfl⟩ : ∃ p : Fin 800000, i = ixP p := ⟨i 0, by
    funext b; match b with
    | ⟨0, _⟩ => rfl
    | ⟨1, _⟩ => exact Fin.ext (by have := (i 1).isLt; change (i 1).val < 1 at this; show (i 1).val = 0; omega)⟩
  have hk := h p
  show IntOp.andi (IntOp.cmpi .sge (wrapIdx (srcOf e) (ixP p)) 0#32) (IntOp.cmpi .sle (wrapIdx (srcOf e) (ixP p)) 49999#32) = 1#1
  rw [wrapIdx_apply e h]
  rw [(sge_iff_toNat (by omega) (by decide)).2 (by simp), (sle_iff_toNat (by omega) (by decide)).2 (by simp; omega)]
  rfl

/-- With every source id in range the in-bounds mask is all ones. -/
theorem inBounds_eq (e : IVec S2x800000 32) (h : SrcInRange e) : inBounds (wrapIdx (srcOf e)) = fun _ => 1#1 := by
  funext j
  unfold inBounds
  exact reduce_andi_ones _ _ _ _ (fun _ => rfl) (inRange_apply e h) j

/-- With every source id in range the in-bounds mask is all ones, so the masked gather is the plain gather (128 features). -/
theorem take128_eq (x : FVec Ideal S50000x128 .f32) (e : IVec S2x800000 32) (h : SrcInRange e) :
    take128 x (srcOf e) = Host.gather gather_S50000x128_S800000x1_S800000x128_1_0_n_n_0_1_1128 x (wrapIdx (srcOf e)) := by
  unfold take128
  rw [inBounds_eq e h]
  funext i
  exact select_one _ _

/-- The same over 256 features. -/
theorem take256_eq (x : FVec Ideal S50000x256 .f32) (e : IVec S2x800000 32) (h : SrcInRange e) :
    take256 x (srcOf e) = Host.gather gather_S50000x256_S800000x1_S800000x256_1_0_n_n_0_1_1256 x (wrapIdx (srcOf e)) := by
  unfold take256
  rw [inBounds_eq e h]
  funext i
  exact select_one _ _

end Cert.KernelIdeal.Sage

end
-- ==== Proof.Sage.Pre.lean ====
import proofs.«423074_j90761248899605_1_alg».proof.Defs
import proofs.«423074_j90761248899605_1_alg».proof.Proof.Gen.Pre_finite_inputs
import proofs.«423074_j90761248899605_1_alg».proof.Proof.Sage.Take
import Idealize.ShloMosaic.Lib.ReduceAll
import Idealize.ShloMosaic.Lib.StableHlo.Predicate

set_option maxRecDepth 16384

noncomputable section

namespace Cert.KernelIdeal.Sage

open Cert.KernelIdeal Cert.KernelIdeal.Facts₀ Cert.KernelIdeal.Facts Idealize.ShloMosaic Idealize.ShloMosaic.ValueIdx Idealize.SL.Sem

/-- A word that is at least 0 and below 50000 as a signed number is below 50000 as an unsigned one. -/
theorem toNat_lt_of_signed_range (w : BitVec 32) (h0 : IntOp.cmpi .sge w 0#32 = 1#1) (h1 : IntOp.cmpi .slt w 50000#32 = 1#1) :
    w.toNat < 50000 := by
  rw [IntOp.cmpi_sge, show (0#32 : BitVec 32).toInt = 0 from by decide] at h0
  rw [IntOp.cmpi_slt, show (50000#32 : BitVec 32).toInt = 50000 from by decide] at h1
  rw [BitVec.toInt_eq_toNat_cond] at h0 h1
  split at h1 <;> omega

/-- The precondition's last conjunct says exactly that every source id lies in `[0, 50000)`. -/
theorem srcInRange_of_pre (m : (ℓ : Loc nD τ sig) → Buf (Elt Ideal) ℓ) (hpre : Cert.Pre_KernelIdeal m) (c : Dev nD) :
    SrcInRange (m ((c.tc : Thread nD τ).loc main_arg1)) := by
  intro k
  -- the scalar shape has one index, so the reduction over all edges has every edge under its one result
  haveI : Subsingleton Cert.Pre_finite_inputs.S_.Idx := ⟨fun a b => funext fun d => d.elim0⟩
  have e := congrFun (hpre c) ix0
  dsimp only [Cert.Pre_finite_inputs.fn, Cert.Pre_finite_inputs.fn_part1, Cert.Pre_finite_inputs.fn_part2,
    Cert.Pre_finite_inputs.fn_part3] at e
  have e2 := (IntOp.andi_eq_one.1 e).2
  have e3 := Host.reduce_andi_all _ _ _ _ _ e2 (ix1 k)
  obtain ⟨h0, h1⟩ := IntOp.andi_eq_one.1 e3
  exact toNat_lt_of_signed_range _ h0 h1

end Cert.KernelIdeal.Sage

end
-- ==== Proof.Sage.Agg.lean ====
/-
  The mean aggregation of the two programs is one function.

  Both sum, per destination node, the gathered source rows; one program then multiplies the sum by the reciprocal
  `1 / max deg 1` it computed once, the other divides the sum by `max deg 1`. Entry by entry that is
  `s · (1 / d) = s / d` with `d = max deg 1`, which holds for every extended real `s` and every `deg` because
  `d ≥ 1` is never zero. Neither the gather nor the summation is opened: they are the same operations of the same
  arguments on both sides.
-/
import proofs.«423074_j90761248899605_1_alg».proof.Proof.Sage.KTerms
import proofs.«423074_j90761248899605_1_alg».proof.Proof.Sage.RTerms
import proofs.«423074_j90761248899605_1_alg».proof.Proof.Sage.Spec
import Idealize.ShloMosaic.Lib.ValueIdx

set_option maxRecDepth 16384

noncomputable section

namespace Cert.Sage

open Idealize.ShloMosaic Idealize.ShloMosaic.ValueIdx

/-- The word `0x3F800000` is the number one. -/
theorem ofBits_one : Ideal.ofBits .f32 0x3F800000#32 = 1 := by
  simp [Ideal.ofBits, Ideal.ieee, -EReal.coe_mul]; norm_num

/-- Entry by entry: a sum times the reciprocal of `max d 1` is the sum divided by `max d 1`; `one` is the word for 1. -/
theorem mean_entry (s d one : EReal) (h : one = 1) : s * Ideal.div one (max d one) = Ideal.div s (max d one) := by
  subst h; exact mul_recip_max s d

/-- Array by array, at any shapes: with `M = max D 1` kept per node and laid out along the features by two broadcasts,
    the sums times the broadcast reciprocal `1 / M` are the sums divided by the broadcast `M`. A broadcast reads its
    operand at an index that depends on the result index only, so a pointwise quotient may be taken before or after it. -/
theorem mulf_recip_eq_divf {s t1 t0 : Shape} {d1 : Fin t0.rank → Fin t1.rank} {d2 : Fin t1.rank → Fin s.rank}
    (h1 : t0.BroadcastsInDim t1 d1) (h2 : t1.BroadcastsInDim s d2)
    (S : FVec Ideal s .f32) (D one : FVec Ideal t0 .f32) (hone : ∀ k, one k = 1) :
    mulf S (broadcastInDim s d2 h2 (broadcastInDim t1 d1 h1 (Host.divf one (maximumf D one))))
      = Host.divf S (broadcastInDim s d2 h2 (broadcastInDim t1 d1 h1 (maximumf D one))) := by
  funext i
  exact mean_entry (S i) _ _ (hone _)

/-- Over 128 features: the summed gathered rows times the reciprocal is the reference's mean. -/
theorem agg128_gather_eq_mean128 (x : FVec Ideal Cert.KernelIdeal.S50000x128 .f32) (e : IVec Cert.KernelIdeal.S2x800000 32) :
    Cert.KernelIdeal.Sage.agg128
        (Host.gather Cert.KernelIdeal.gather_S50000x128_S800000x1_S800000x128_1_0_n_n_0_1_1128 x (Cert.KernelIdeal.Sage.wrapIdx (Cert.KernelIdeal.Sage.srcOf e)))
        (Cert.KernelIdeal.Sage.dstOf e) (Cert.KernelIdeal.Sage.invDeg (Cert.KernelIdeal.Sage.dstOf e))
      = Cert.ReferenceIdeal.Sage.mean128 x e := by
  unfold Cert.KernelIdeal.Sage.agg128 Cert.ReferenceIdeal.Sage.mean128 Cert.KernelIdeal.Sage.invDeg Cert.KernelIdeal.Sage.maxDeg
    Cert.ReferenceIdeal.Sage.maxDeg
  exact mulf_recip_eq_divf _ _ _ _ _ (fun _ => ofBits_one)

/-- Over 256 features. -/
theorem agg256_gather_eq_mean256 (x : FVec Ideal Cert.KernelIdeal.S50000x256 .f32) (e : IVec Cert.KernelIdeal.S2x800000 32) :
    Cert.KernelIdeal.Sage.agg256
        (Host.gather Cert.KernelIdeal.gather_S50000x256_S800000x1_S800000x256_1_0_n_n_0_1_1256 x (Cert.KernelIdeal.Sage.wrapIdx (Cert.KernelIdeal.Sage.srcOf e)))
        (Cert.KernelIdeal.Sage.dstOf e) (Cert.KernelIdeal.Sage.invDeg (Cert.KernelIdeal.Sage.dstOf e))
      = Cert.ReferenceIdeal.Sage.mean256 x e := by
  unfold Cert.KernelIdeal.Sage.agg256 Cert.ReferenceIdeal.Sage.mean256 Cert.KernelIdeal.Sage.invDeg Cert.KernelIdeal.Sage.maxDeg
    Cert.ReferenceIdeal.Sage.maxDeg
  exact mulf_recip_eq_divf _ _ _ _ _ (fun _ => ofBits_one)

end Cert.Sage

end
-- ==== Proof.Sage.RefDense.lean ====
/-
  The reference's dense half of each layer, read entry by entry.

  Each layer of the reference forms `agg · Wl + h · Wr` by two matrix products, adds the bias (a vector of `M`
  entries, first made a `1 × M` row and then laid over all 50000 nodes) and applies the activation. At node `p` and
  output feature `q` a matrix product is the sum over the input features `k` of `l (p, k) · r (k, q)`; the bias read
  there is the row's entry `(0, q)`; the rectifier is `max · 0` (the constant's bit pattern denotes `0`); and the
  reference's sigmoid `1 / (1 + exp (-v))` is the logistic function by its definition (the constant's bit pattern
  denotes `1`). So each layer's array is `dense` of the shared specification.
-/
import proofs.«423074_j90761248899605_1_alg».proof.Proof.Sage.RTerms
import proofs.«423074_j90761248899605_1_alg».proof.Proof.Sage.Spec
import proofs.«423074_j90761248899605_1_alg».proof.Proof.Gen.ReferenceIdeal.Read
import Idealize.ShloMosaic.PureOps.Ideal.Laws
import Idealize.ShloMosaic.Lib.ValueIdx
import Idealize.ShloMosaic.Lib.Pipeline.Value

set_option maxRecDepth 16384

noncomputable section

open scoped BigOperators

namespace Cert.ReferenceIdeal.Sage

open Cert.ReferenceIdeal Cert.ReferenceIdeal.Facts₀ Cert.ReferenceIdeal.Facts Idealize.ShloMosaic Idealize.ShloMosaic.ValueIdx

/-- The product of a `50000 × 128` by a `128 × 256` matrix at entry `(p, q)`: the sum over `k` of `l (p, k) · r (k, q)`. -/
theorem dot0_apply (l : FVec Ideal S50000x128 .f32) (r : FVec Ideal S128x256 .f32) (p : Fin 50000) (q : Fin 256) :
    Host.dotGeneral dot_S50000x128_S128x256_S50000x256_1_0_0_1_n_n none l r (ix2 p q) = ∑ k : Fin 128, l (ix2 p k) * r (ix2 k q) := by
  simp only [Host.dotGeneral]
  rw [Ideal.dotGeneral_apply, ← Equiv.sum_comp (contrEquiv1 dot_S50000x128_S128x256_S50000x256_1_0_0_1_n_n 128 rfl rfl).symm]
  refine Finset.sum_congr rfl fun k _ => ?_
  have hk := contrEquiv1_symm_val dot_S50000x128_S128x256_S50000x256_1_0_0_1_n_n 128 rfl rfl k
  have el : dot_S50000x128_S128x256_S50000x256_1_0_0_1_n_n.lhsIdx (ix2 p q) ((contrEquiv1 dot_S50000x128_S128x256_S50000x256_1_0_0_1_n_n 128 rfl rfl).symm k) = ix2 p k := funext fun a => Fin.ext (by
    match a with
    | ⟨0, _⟩ => exact Read.lhs_main_v24_0 _ _
    | ⟨1, _⟩ => exact (Read.lhs_main_v24_1 _ _).trans hk)
  have er : dot_S50000x128_S128x256_S50000x256_1_0_0_1_n_n.rhsIdx (ix2 p q) ((contrEquiv1 dot_S50000x128_S128x256_S50000x256_1_0_0_1_n_n 128 rfl rfl).symm k) = ix2 k q := funext fun a => Fin.ext (by
    match a with
    | ⟨0, _⟩ => exact (Read.rhs_main_v24_0 _ _).trans hk
    | ⟨1, _⟩ => exact Read.rhs_main_v24_1 _ _)
  rw [el, er]

/-- The product of a `50000 × 256` by a `256 × 128` matrix at entry `(p, q)`. -/
theorem dot1_apply (l : FVec Ideal S50000x256 .f32) (r : FVec Ideal S256x128 .f32) (p : Fin 50000) (q : Fin 128) :
    Host.dotGeneral dot_S50000x256_S256x128_S50000x128_1_0_0_1_n_n none l r (ix2 p q) = ∑ k : Fin 256, l (ix2 p k) * r (ix2 k q) := by
  simp only [Host.dotGeneral]
  rw [Ideal.dotGeneral_apply, ← Equiv.sum_comp (contrEquiv1 dot_S50000x256_S256x128_S50000x128_1_0_0_1_n_n 256 rfl rfl).symm]
  refine Finset.sum_congr rfl fun k _ => ?_
  have hk := contrEquiv1_symm_val dot_S50000x256_S256x128_S50000x128_1_0_0_1_n_n 256 rfl rfl k
  have el : dot_S50000x256_S256x128_S50000x128_1_0_0_1_n_n.lhsIdx (ix2 p q) ((contrEquiv1 dot_S50000x256_S256x128_S50000x128_1_0_0_1_n_n 256 rfl rfl).symm k) = ix2 p k := funext fun a => Fin.ext (by
    match a with
    | ⟨0, _⟩ => exact Read.lhs_main_v49_0 _ _
    | ⟨1, _⟩ => exact (Read.lhs_main_v49_1 _ _).trans hk)
  have er : dot_S50000x256_S256x128_S50000x128_1_0_0_1_n_n.rhsIdx (ix2 p q) ((contrEquiv1 dot_S50000x256_S256x128_S50000x128_1_0_0_1_n_n 256 rfl rfl).symm k) = ix2 k q := funext fun a => Fin.ext (by
    match a with
    | ⟨0, _⟩ => exact (Read.rhs_main_v49_0 _ _).trans hk
    | ⟨1, _⟩ => exact Read.rhs_main_v49_1 _ _)
  rw [el, er]

/-- The product of a `50000 × 128` by a `128 × 64` matrix at entry `(p, q)`. -/
theorem dot2_apply (l : FVec Ideal S50000x128 .f32) (r : FVec Ideal S128x64 .f32) (p : Fin 50000) (q : Fin 64) :
    Host.dotGeneral dot_S50000x128_S128x64_S50000x64_1_0_0_1_n_n none l r (ix2 p q) = ∑ k : Fin 128, l (ix2 p k) * r (ix2 k q) := by
  simp only [Host.dotGeneral]
  rw [Ideal.dotGeneral_apply, ← Equiv.sum_comp (contrEquiv1 dot_S50000x128_S128x64_S50000x64_1_0_0_1_n_n 128 rfl rfl).symm]
  refine Finset.sum_congr rfl fun k _ => ?_
  have hk := contrEquiv1_symm_val dot_S50000x128_S128x64_S50000x64_1_0_0_1_n_n 128 rfl rfl k
  have el : dot_S50000x128_S128x64_S50000x64_1_0_0_1_n_n.lhsIdx (ix2 p q) ((contrEquiv1 dot_S50000x128_S128x64_S50000x64_1_0_0_1_n_n 128 rfl rfl).symm k) = ix2 p k := funext fun a => Fin.ext (by
    match a with
    | ⟨0, _⟩ => exact Read.lhs_main_v75_0 _ _
    | ⟨1, _⟩ => exact (Read.lhs_main_v75_1 _ _).trans hk)
  have er : dot_S50000x128_S128x64_S50000x64_1_0_0_1_n_n.rhsIdx (ix2 p q) ((contrEquiv1 dot_S50000x128_S128x64_S50000x64_1_0_0_1_n_n 128 rfl rfl).symm k) = ix2 k q := funext fun a => Fin.ext (by
    match a with
    | ⟨0, _⟩ => exact (Read.rhs_main_v75_0 _ _).trans hk
    | ⟨1, _⟩ => exact Read.rhs_main_v75_1 _ _)
  rw [el, er]

/-- The bias row laid over all nodes reads, at node `p` and feature `q`, the row's entry `q`. -/
theorem bias256_apply (y : FVec Ideal S1x256 .f32) (p : Fin 50000) (q : Fin 256) :
    broadcastInDim S50000x256 ![0, 1] bcast_S1x256_S50000x256_0_1 y (ix2 p q) = y (ix2 0 q) :=
  broadcastInDim_apply _ bcast_S1x256_S50000x256_0_1 y (ix2 p q) (ix2 0 q) (fun a => match a with
    | ⟨0, _⟩ => by show 0 = if (1 : Nat) = 1 then 0 else p.val; rw [if_pos rfl]
    | ⟨1, _⟩ => by show q.val = if (256 : Nat) = 1 then 0 else q.val; rw [if_neg (by decide)])

/-- The bias row laid over all nodes reads, at node `p` and feature `q`, the row's entry `q`. -/
theorem bias128_apply (y : FVec Ideal S1x128 .f32) (p : Fin 50000) (q : Fin 128) :
    broadcastInDim S50000x128 ![0, 1] bcast_S1x128_S50000x128_0_1 y (ix2 p q) = y (ix2 0 q) :=
  broadcastInDim_apply _ bcast_S1x128_S50000x128_0_1 y (ix2 p q) (ix2 0 q) (fun a => match a with
    | ⟨0, _⟩ => by show 0 = if (1 : Nat) = 1 then 0 else p.val; rw [if_pos rfl]
    | ⟨1, _⟩ => by show q.val = if (128 : Nat) = 1 then 0 else q.val; rw [if_neg (by decide)])

/-- The bias row laid over all nodes reads, at node `p` and feature `q`, the row's entry `q`. -/
theorem bias64_apply (y : FVec Ideal S1x64 .f32) (p : Fin 50000) (q : Fin 64) :
    broadcastInDim S50000x64 ![0, 1] bcast_S1x64_S50000x64_0_1 y (ix2 p q) = y (ix2 0 q) :=
  broadcastInDim_apply _ bcast_S1x64_S50000x64_0_1 y (ix2 p q) (ix2 0 q) (fun a => match a with
    | ⟨0, _⟩ => by show 0 = if (1 : Nat) = 1 then 0 else p.val; rw [if_pos rfl]
    | ⟨1, _⟩ => by show q.val = if (64 : Nat) = 1 then 0 else q.val; rw [if_neg (by decide)])

/-- Layer 1 of the reference (two products, the bias row laid over the nodes, the rectifier) is the dense half. -/
theorem relu_lin0_eq (agg h : FVec Ideal S50000x128 .f32) (Wl Wr : FVec Ideal S128x256 .f32) (b : FVec Ideal S256 .f32) :
    relu256 (lin0 agg h Wl Wr b)
      = Cert.Sage.dense (N := 50000) (K := 128) (M := 256) Cert.Sage.relu agg h Wl Wr (broadcastInDim S1x256 ![1] bcast_S256_S1x256_1 b) := by
  funext i
  obtain ⟨p, q, rfl⟩ : ∃ (p : Fin 50000) (q : Fin 256), i = ix2 p q := ⟨i 0, i 1, eq_ix2 i⟩
  rw [Cert.Sage.dense_apply]
  unfold relu256 lin0 Cert.Sage.denseAt Cert.Sage.relu
  rw [maximumf_apply, addf_apply, addf_apply, dot0_apply, dot0_apply, bias256_apply]
  congr 1
  exact Ideal.ofBits_zero_f32

/-- Layer 2 likewise. -/
theorem relu_lin1_eq (agg h : FVec Ideal S50000x256 .f32) (Wl Wr : FVec Ideal S256x128 .f32) (b : FVec Ideal S128 .f32) :
    relu128 (lin1 agg h Wl Wr b)
      = Cert.Sage.dense (N := 50000) (K := 256) (M := 128) Cert.Sage.relu agg h Wl Wr (broadcastInDim S1x128 ![1] bcast_S128_S1x128_1 b) := by
  funext i
  obtain ⟨p, q, rfl⟩ : ∃ (p : Fin 50000) (q : Fin 128), i = ix2 p q := ⟨i 0, i 1, eq_ix2 i⟩
  rw [Cert.Sage.dense_apply]
  unfold relu128 lin1 Cert.Sage.denseAt Cert.Sage.relu
  rw [maximumf_apply, addf_apply, addf_apply, dot1_apply, dot1_apply, bias128_apply]
  congr 1
  exact Ideal.ofBits_zero_f32

/-- The bit pattern `0x3F800000` denotes the number one. -/
theorem ofBits_one_f32 : Ideal.ofBits .f32 0x3F800000#32 = 1 := by
  simp [Ideal.ofBits, Ideal.ieee, -EReal.coe_mul]; norm_num

/-- Layer 3: the reference's `1 / (1 + exp (-v))` is the logistic function. -/
theorem sigm_lin2_eq (agg h : FVec Ideal S50000x128 .f32) (Wl Wr : FVec Ideal S128x64 .f32) (b : FVec Ideal S64 .f32) :
    sigm64 (lin2 agg h Wl Wr b)
      = Cert.Sage.dense (N := 50000) (K := 128) (M := 64) Ideal.logistic agg h Wl Wr (broadcastInDim S1x64 ![1] bcast_S64_S1x64_1 b) := by
  funext i
  obtain ⟨p, q, rfl⟩ : ∃ (p : Fin 50000) (q : Fin 64), i = ix2 p q := ⟨i 0, i 1, eq_ix2 i⟩
  have hv : lin2 agg h Wl Wr b (ix2 p q)
      = (∑ k : Fin 128, agg (ix2 p k) * Wl (ix2 k q)) + (∑ k : Fin 128, h (ix2 p k) * Wr (ix2 k q))
        + broadcastInDim S1x64 ![1] bcast_S64_S1x64_1 b (ix2 0 q) := by
    unfold lin2
    rw [addf_apply, addf_apply, dot2_apply, dot2_apply, bias64_apply]
  rw [Cert.Sage.dense_apply]
  unfold Cert.Sage.denseAt
  rw [← hv]
  show Ideal.div (Ideal.ofBits .f32 0x3F800000#32) (Ideal.ofBits .f32 0x3F800000#32 + Ideal.exp (-(lin2 agg h Wl Wr b (ix2 p q)))) = _
  rw [ofBits_one_f32]
  rfl

end Cert.ReferenceIdeal.Sage

end
-- ==== Proof.Sage.Bias.lean ====
/-
  A bias vector as a one-row matrix: reshaping a vector of `M` entries to a `1 × M` row and broadcasting it along the
  second axis of a `1 × M` row give the same row, entry `(0, q)` being the vector's entry `q` either way.
-/
import proofs.«423074_j90761248899605_1_alg».proof.Proof.Gen.KernelIdeal
import proofs.«423074_j90761248899605_1_alg».proof.Proof.Gen.ReferenceIdeal
import Idealize.ShloMosaic.Lib.ValueIdx
import Idealize.ShloMosaic.Lib.ValueLayout

noncomputable section

namespace Cert.Sage

open Idealize.ShloMosaic Idealize.ShloMosaic.ValueIdx

/-- A vector broadcast along the second axis of a `1 × m` row reads, at `(u, q)`, the vector at `q`. -/
theorem bcast_row_apply {α : Type} {m : ℕ} (h : (⟨1, ![m]⟩ : Shape).BroadcastsInDim ⟨2, ![1, m]⟩ ![1])
    (v : (⟨1, ![m]⟩ : Shape).Idx → α) (u : Fin 1) (q : Fin m) :
    broadcastInDim ⟨2, ![1, m]⟩ ![1] h v (ix2 u q) = v (ix1 q) := by
  simp only [broadcastInDim]
  congr 1
  funext a
  match a with
  | ⟨0, _⟩ =>
    apply Fin.ext
    have hq := q.isLt
    split
    · next h1 => change m = 1 at h1; show (0 : ℕ) = q.val; omega
    · rfl

/-- The reshaped vector and the broadcast vector are the same `1 × m` row. -/
theorem reshape_row_eq_bcast_row {α : Type} {m : ℕ} (hc : (⟨1, ![m]⟩ : Shape).ShapeCasts ⟨2, ![1, m]⟩)
    (hb : (⟨1, ![m]⟩ : Shape).BroadcastsInDim ⟨2, ![1, m]⟩ ![1]) (b : (⟨1, ![m]⟩ : Shape).Idx → α) :
    shapeCast ⟨2, ![1, m]⟩ b hc = broadcastInDim ⟨2, ![1, m]⟩ ![1] hb b := by
  funext j
  obtain ⟨u, q, rfl⟩ : ∃ (u : Fin 1) (q : Fin m), j = ix2 u q := ⟨j 0, j 1, eq_ix2 j⟩
  rw [shapeCast_a_1a_apply, bcast_row_apply]

/-- The bias of 256 entries: the reshaped row is the broadcast row. -/
theorem bias256 (b : FVec Ideal Cert.KernelIdeal.S256 .f32) :
    shapeCast Cert.KernelIdeal.S1x256 b Cert.KernelIdeal.Facts₀.shapeCasts_S256_S1x256
      = broadcastInDim Cert.ReferenceIdeal.S1x256 ![1] Cert.ReferenceIdeal.Facts₀.bcast_S256_S1x256_1 b :=
  reshape_row_eq_bcast_row _ _ b

/-- The bias of 128 entries. -/
theorem bias128 (b : FVec Ideal Cert.KernelIdeal.S128 .f32) :
    shapeCast Cert.KernelIdeal.S1x128 b Cert.KernelIdeal.Facts₀.shapeCasts_S128_S1x128
      = broadcastInDim Cert.ReferenceIdeal.S1x128 ![1] Cert.ReferenceIdeal.Facts₀.bcast_S128_S1x128_1 b :=
  reshape_row_eq_bcast_row _ _ b

/-- The bias of 64 entries. -/
theorem bias64 (b : FVec Ideal Cert.KernelIdeal.S64 .f32) :
    shapeCast Cert.KernelIdeal.S1x64 b Cert.KernelIdeal.Facts₀.shapeCasts_S64_S1x64
      = broadcastInDim Cert.ReferenceIdeal.S1x64 ![1] Cert.ReferenceIdeal.Facts₀.bcast_S64_S1x64_1 b :=
  reshape_row_eq_bcast_row _ _ b

end Cert.Sage

end
-- ==== Proof.Sage.Layers.lean ====
/-
  The two programs' layers are one function when every edge's source id is a node.

  The kernel's program gathers the source rows under an in-bounds mask; with every id in range the mask is all ones and
  the masked gather is the plain one. Its mean aggregation multiplies the per-node sums by the reciprocal of
  `max deg 1`, the reference divides by `max deg 1`: the same array. Both then apply the same dense half
  `act (agg · Wl + h · Wr + b)`, the bias laid out as a `1 × M` row by a shape cast on one side and by a broadcast along
  a new leading unit axis on the other: the same row.
-/
import proofs.«423074_j90761248899605_1_alg».proof.Proof.Sage.KTerms
import proofs.«423074_j90761248899605_1_alg».proof.Proof.Sage.RTerms
import proofs.«423074_j90761248899605_1_alg».proof.Proof.Sage.Take
import proofs.«423074_j90761248899605_1_alg».proof.Proof.Sage.Agg
import proofs.«423074_j90761248899605_1_alg».proof.Proof.Sage.RefDense
import proofs.«423074_j90761248899605_1_alg».proof.Proof.Sage.Bias

set_option maxRecDepth 16384

noncomputable section

namespace Cert.Sage

open Idealize.ShloMosaic

/-- The first hidden layer: the masked gather is the gather, the product with the reciprocal is the quotient, the bias
    row is the same row, and the reference's rectified linear map is the dense half. -/
theorem layer1_eq (x : FVec Ideal Cert.KernelIdeal.S50000x128 .f32) (e : IVec Cert.KernelIdeal.S2x800000 32)
    (Wl Wr : FVec Ideal Cert.KernelIdeal.S128x256 .f32) (b : FVec Ideal Cert.KernelIdeal.S256 .f32)
    (h : Cert.KernelIdeal.Sage.SrcInRange e) :
    Cert.KernelIdeal.Sage.layer1 x e Wl Wr b = Cert.ReferenceIdeal.Sage.hid1 x e Wl Wr b := by
  unfold Cert.KernelIdeal.Sage.layer1 Cert.ReferenceIdeal.Sage.hid1
  rw [Cert.KernelIdeal.Sage.take128_eq x e h, agg128_gather_eq_mean128 x e, bias256 b]
  exact (Cert.ReferenceIdeal.Sage.relu_lin0_eq _ _ _ _ _).symm

/-- The second hidden layer, likewise over 256 input features. -/
theorem layer2_eq (g : FVec Ideal Cert.KernelIdeal.S50000x256 .f32) (e : IVec Cert.KernelIdeal.S2x800000 32)
    (Wl Wr : FVec Ideal Cert.KernelIdeal.S256x128 .f32) (b : FVec Ideal Cert.KernelIdeal.S128 .f32)
    (h : Cert.KernelIdeal.Sage.SrcInRange e) :
    Cert.KernelIdeal.Sage.layer2 g e Wl Wr b = Cert.ReferenceIdeal.Sage.hid2 g e Wl Wr b := by
  unfold Cert.KernelIdeal.Sage.layer2 Cert.ReferenceIdeal.Sage.hid2
  rw [Cert.KernelIdeal.Sage.take256_eq g e h, agg256_gather_eq_mean256 g e, bias128 b]
  exact (Cert.ReferenceIdeal.Sage.relu_lin1_eq _ _ _ _ _).symm

/-- The output layer, likewise, with the logistic function: the reference's `1 / (1 + exp (-v))` is it. -/
theorem layer3_eq (g : FVec Ideal Cert.KernelIdeal.S50000x128 .f32) (e : IVec Cert.KernelIdeal.S2x800000 32)
    (Wl Wr : FVec Ideal Cert.KernelIdeal.S128x64 .f32) (b : FVec Ideal Cert.KernelIdeal.S64 .f32)
    (h : Cert.KernelIdeal.Sage.SrcInRange e) :
    Cert.KernelIdeal.Sage.layer3 g e Wl Wr b = Cert.ReferenceIdeal.Sage.outOf g e Wl Wr b := by
  unfold Cert.KernelIdeal.Sage.layer3 Cert.ReferenceIdeal.Sage.outOf
  rw [Cert.KernelIdeal.Sage.take128_eq g e h, agg128_gather_eq_mean128 g e, bias64 b]
  exact (Cert.ReferenceIdeal.Sage.sigm_lin2_eq _ _ _ _ _).symm

end Cert.Sage

end
-- ==== Proof.lean ====
/-
  The certificate's proof: a three-layer graph network (per layer, the mean of the in-neighbours' features against one
  weight matrix, the node's own features against another, a bias, an activation) computed by a program with three
  pallas_calls, against its plain reference, over the extended reals.

  The three frames are the generated ones (the reference's is its run with the result dropped). The idealization rewrote
  nothing, so there is nothing to preserve. For the values: the kernel's run ends with its result array at the last
  region's write-backs, which reads back, boundary by boundary, as `layer3 (layer2 (layer1 …))` of the arguments; the
  reference's run ends at `outOf (hid2 (hid1 …))` of the same arguments. Layer by layer the two are one function:
  under the precondition every edge's source id is a node, so the kernel's in-bounds mask is all ones and its masked
  gather is the plain gather; multiplying the per-node sums by `1 / max deg 1` is dividing them by `max deg 1`; a block-wise
  matrix product into a zero accumulator and a whole matrix product are the same sums of products; the bias reshaped to
  a row is the bias broadcast to a row; and `1 / (1 + exp (-v))` is the logistic function.
-/
import proofs.«423074_j90761248899605_1_alg».proof.Defs
import proofs.«423074_j90761248899605_1_alg».proof.Proof.Gen.Kernel
import proofs.«423074_j90761248899605_1_alg».proof.Proof.Gen.Kernel.Skeleton
import proofs.«423074_j90761248899605_1_alg».proof.Proof.Gen.Kernel.Launch
import proofs.«423074_j90761248899605_1_alg».proof.Proof.Gen.Kernel.Points
import proofs.«423074_j90761248899605_1_alg».proof.Proof.Gen.Kernel.Frame
import proofs.«423074_j90761248899605_1_alg».proof.Proof.Gen.KernelIdeal
import proofs.«423074_j90761248899605_1_alg».proof.Proof.Gen.KernelIdeal.Skeleton
import proofs.«423074_j90761248899605_1_alg».proof.Proof.Gen.KernelIdeal.Launch
import proofs.«423074_j90761248899605_1_alg».proof.Proof.Gen.KernelIdeal.Points
import proofs.«423074_j90761248899605_1_alg».proof.Proof.Gen.KernelIdeal.Frame
import proofs.«423074_j90761248899605_1_alg».proof.Proof.Gen.ReferenceIdeal
import proofs.«423074_j90761248899605_1_alg».proof.Proof.Gen.Pre_finite_inputs
import proofs.«423074_j90761248899605_1_alg».proof.Proof.Gen.ReferenceIdeal.Run
import proofs.«423074_j90761248899605_1_alg».proof.Proof.KernelRun
import proofs.«423074_j90761248899605_1_alg».proof.Proof.Sage.KValue
import proofs.«423074_j90761248899605_1_alg».proof.Proof.Sage.RTerms
import proofs.«423074_j90761248899605_1_alg».proof.Proof.Sage.Pre
import proofs.«423074_j90761248899605_1_alg».proof.Proof.Sage.Layers
import Idealize.ShloMosaic.Adequacy
import Idealize.ShloMosaic.Init

set_option maxRecDepth 16384

noncomputable section

namespace Cert.Proof

open Idealize.ShloMosaic Idealize.ShloMosaic.TcCoe Idealize.SL.Sem

/-- The word-level program runs, faults nowhere and leaves its arguments as launched. -/
theorem frame_k : Cert.frame_Kernel := fun m ρ _ => Cert.Kernel.Gen.frame m ρ

/-- So does the idealized program. -/
theorem frame_ki : Cert.frame_KernelIdeal := fun m ρ _ => Cert.KernelIdeal.Gen.frame m ρ

/-- So does the reference: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Run from memories that agree on the arguments, with every source id a node, the two programs end with the same
    result array: the kernel's result read back through its three rounds, the reference's run read as its three layers,
    and the layers equal one by one. -/
theorem algebraic : Cert.algebraic_KernelIdeal_ReferenceIdeal := by
  intro m ρ m' ρ' hpre hagree
  refine ⟨fun c => Cert.KernelIdeal.Gen.W10 m ρ c (Proc.devRef .tc Cert.KernelIdeal.main_v38),
    Cert.KernelIdeal.Gen.run_value m ρ, ?_⟩
  refine (θ_run Cert.ReferenceIdeal.defs _ _).mono (fun _ h c => ⟨(h c).1.trans ?_, (h c).2⟩)
    (Cert.ReferenceIdeal.Value.run (F := Ideal) m' ρ')
  have hr := Cert.KernelIdeal.Sage.srcInRange_of_pre m hpre c
  obtain ⟨h0, h1, h2, h3, h4, h5, h6, h7, h8, h9, h10⟩ := hagree c
  rw [Cert.ReferenceIdeal.Sage.res_eq m' c, h0, h1, h2, h3, h4, h5, h6, h7, h8, h9, h10]
  refine Eq.trans ?_ (Cert.KernelIdeal.Sage.out10 m ρ c).symm
  rw [Cert.Sage.layer3_eq _ _ _ _ _ hr, Cert.Sage.layer2_eq _ _ _ _ _ hr, Cert.Sage.layer1_eq _ _ _ _ _ hr]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
